-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1024x512 : Shape := ⟨2, ![1024, 512]⟩
abbrev S100000 : Shape := ⟨1, ![100000]⟩
abbrev S512 : Shape := ⟨1, ![512]⟩
abbrev S512x512 : Shape := ⟨2, ![512, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512x512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : FVec F S1024x512 .f32) (main_arg2 : IVec S100000 32) (main_arg3 : FVec F S1024x512 .f32) (main_arg4 : FVec F S512 .f32) (main_arg5 : FVec F S512x512 .f32) (main_arg6 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S100000x512 : Shape := ⟨2, ![100000, 512]⟩
abbrev S1024x512 : Shape := ⟨2, ![1024, 512]⟩
abbrev S100000 : Shape := ⟨1, ![100000]⟩
abbrev S512 : Shape := ⟨1, ![512]⟩
abbrev S512x512 : Shape := ⟨2, ![512, 512]⟩
abbrev S_ : Shape := ⟨0, ![]⟩
abbrev S100x1000 : Shape := ⟨2, ![100, 1000]⟩
abbrev S100 : Shape := ⟨1, ![100]⟩
abbrev S100000x1 : Shape := ⟨2, ![100000, 1]⟩
abbrev S1000x512 : Shape := ⟨2, ![1000, 512]⟩
abbrev S1000x1 : Shape := ⟨2, ![1000, 1]⟩
abbrev S1 : Shape := ⟨1, ![1]⟩
abbrev S1000x256 : Shape := ⟨2, ![1000, 256]⟩
abbrev S256x512 : Shape := ⟨2, ![256, 512]⟩
abbrev S1x512 : Shape := ⟨2, ![1, 512]⟩

abbrev nBuf : Space → Nat
  | .hbm => 33
  | .vmem => 12
  | .smem => 2
  | _ => 0

abbrev bufTy : (tb : Table) → Fin (tcTables nBuf tb) → BufTy
  | .hbm, ⟨0, _⟩ => ⟨S100000x512, .f32⟩
  | .hbm, ⟨1, _⟩ => ⟨S1024x512, .f32⟩
  | .hbm, ⟨2, _⟩ => ⟨S100000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S1024x512, .f32⟩
  | .hbm, ⟨10, _⟩ => ⟨S1024x512, .bf16⟩
  | .hbm, ⟨11, _⟩ => ⟨S512x512, .bf16⟩
  | .hbm, ⟨12, _⟩ => ⟨S512x512, .bf16⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100x1000, .i32⟩
  | .hbm, ⟨29, _⟩ => ⟨S_, .i32⟩
  | .hbm, ⟨30, _⟩ => ⟨S_, .i32⟩
  | .hbm, ⟨31, _⟩ => ⟨S100000x1, .i32⟩
  | .hbm, ⟨32, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S1000x1, .i32⟩
  | .local _ .vmem, ⟨3, _⟩ => ⟨S1000x1, .i32⟩
  | .local _ .vmem, ⟨4, _⟩ => ⟨S1024x512, .bf16⟩
  | .local _ .vmem, ⟨5, _⟩ => ⟨S512x512, .bf16⟩
  | .local _ .vmem, ⟨6, _⟩ => ⟨S512, .f32⟩
  | .local _ .vmem, ⟨7, _⟩ => ⟨S512x512, .bf16⟩
  | .local _ .vmem, ⟨8, _⟩ => ⟨S512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .smem, ⟨0, _⟩ => ⟨S100, .i32⟩
  | .local _ .smem, ⟨1, _⟩ => ⟨S100, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v13 : Ref sig .tc := ⟨.smem, 0, rfl⟩
abbrev main_v14 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

abbrev pre0 : Pipeline.Prefetch sig := ⟨2, ![main_v13.idx, main_v14.idx], fun | 0 => main_v13.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v6 : Index := Scalar.indexCast arg0
  ![v6.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x512_S512x512_0_0 : S1024x512.Slices ![0, 0] S512x512
  slices_S1024x512_S512x512_512_0 : S1024x512.Slices ![512, 0] S512x512
  bitsLt_bf16_f32 : FTy.bits .bf16 < FTy.bits .f32
  bcast_S_S100000 : S_.BroadcastsInDim S100000 (![] : Fin 0 → Fin S100000.rank)
  shapeCasts_S100000_S100x1000 : S100000.ShapeCasts S100x1000
  reducesTo_S100x1000_S100_d1 : S100x1000.ReducesTo [1] S100
  h_S_ : 0 < S_.numel
  shapeCasts_S100000_S100000x1 : S100000.ShapeCasts S100000x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  numel1_S1 : S1.numel = 1
  iota_S1000x256_d1_w32 : S1000x256.Iotas .tc 32 [1]
  broadcasts_S1000x1_S1000x256 : S1000x1.Broadcasts S1000x256
  natLt_1_32 : 1 < 32
  inb_S1024x512_S256x512_0_0 : ∀ a, (![0, 0] : Fin 2 → Nat) a + S256x512.size a ≤ S1024x512.size a
  h_S256x512 : 0 < S256x512.numel
  shapeCasts_S256x512_S256x512 : S256x512.ShapeCasts S256x512
  inb_S1024x512_S256x512_256_0 : ∀ a, (![256, 0] : Fin 2 → Nat) a + S256x512.size a ≤ S1024x512.size a
  inb_S1024x512_S256x512_512_0 : ∀ a, (![512, 0] : Fin 2 → Nat) a + S256x512.size a ≤ S1024x512.size a
  inb_S1024x512_S256x512_768_0 : ∀ a, (![768, 0] : Fin 2 → Nat) a + S256x512.size a ≤ S1024x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  dot_S1024x512_S512x512_S1024x512_1_0_0_1_n_n_wf : DotDims.WF S1024x512 S512x512 S1024x512 [1] [0] [0] [1] [] []
  dot_S1000x256_S256x512_S1000x512_1_0_0_1_n_n_wf : DotDims.WF S1000x256 S256x512 S1000x512 [1] [0] [0] [1] [] []
  dot_S1000x512_S512x512_S1000x512_1_0_0_1_n_n_wf : DotDims.WF S1000x512 S512x512 S1000x512 [1] [0] [0] [1] [] []
  hrank0 : 0 < grid0.rank
  k0_off1_inb : ∀ i : grid0.Coords, ∀ a, (k0_off1 i) a + S1.size a ≤ S100.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .i32 = 32 ∨ (Rect.block (s := S100000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S100000x512.size a
  hwx0_7 : ∀ i : grid0.Coords, EltTy.bits .f32 = 32 ∨ (Rect.block (s := S100000x512) S1000x512.size (cc0_transform_7 i) (hinb0_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev spec0_0 : Pipeline.WinSpec sig grid0.rank :=
  Pipeline.WinSpec.ofSpec (Memref.whole main_arg0) S1000x512.size reads0_0 false false 2 stage0_0 sem0_0 nbuf0_0 hstage0_0

abbrev spec0_1 : Pipeline.WinSpec sig grid0.rank :=
  Pipeline.WinSpec.ofSpec (Memref.whole main_v15) S1000x1.size reads0_1 false false 2 stage0_1 sem0_1 nbuf0_1 hstage0_1

abbrev spec0_2 : Pipeline.WinSpec sig grid0.rank :=
  Pipeline.WinSpec.ofSpec (Memref.whole main_v3) S1024x512.size reads0_2 false true 1 stage0_2 sem0_2 nbuf0_2 hstage0_2

abbrev spec0_3 : Pipeline.WinSpec sig grid0.rank :=
  Pipeline.WinSpec.ofSpec (Memref.whole main_v4) S512x512.size reads0_3 false true 1 stage0_3 sem0_3 nbuf0_3 hstage0_3

abbrev spec0_4 : Pipeline.WinSpec sig grid0.rank :=
  Pipeline.WinSpec.ofSpec (Memref.whole main_arg4) S512.size reads0_4 false true 1 stage0_4 sem0_4 nbuf0_4 hstage0_4

abbrev spec0_5 : Pipeline.WinSpec sig grid0.rank :=
  Pipeline.WinSpec.ofSpec (Memref.whole main_v5) S512x512.size reads0_5 false true 1 stage0_5 sem0_5 nbuf0_5 hstage0_5

abbrev spec0_6 : Pipeline.WinSpec sig grid0.rank :=
  Pipeline.WinSpec.ofSpec (Memref.whole main_arg6) S512.size reads0_6 false true 1 stage0_6 sem0_6 nbuf0_6 hstage0_6

abbrev spec0_7 : Pipeline.WinSpec sig grid0.rank :=
  Pipeline.WinSpec.ofSpec (Memref.whole main_v16) S1000x512.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S100000x512 : Shape := ⟨2, ![100000, 512]⟩
abbrev S1024x512 : Shape := ⟨2, ![1024, 512]⟩
abbrev S100000 : Shape := ⟨1, ![100000]⟩
abbrev S512 : Shape := ⟨1, ![512]⟩
abbrev S512x512 : Shape := ⟨2, ![512, 512]⟩
abbrev S_ : Shape := ⟨0, ![]⟩
abbrev S100000x1 : Shape := ⟨2, ![100000, 1]⟩
abbrev S100000x1024 : Shape := ⟨2, ![100000, 1024]⟩
abbrev S1x512 : Shape := ⟨2, ![1, 512]⟩

abbrev nBuf : Space → Nat
  | .hbm => 28
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1024x512, .f32⟩
  | .hbm, ⟨2, _⟩ => ⟨S100000, .i32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x512, .f32⟩
  | .hbm, ⟨16, _⟩ => ⟨S100000x1024, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000x512, .f32⟩
  | .hbm, ⟨23, _⟩ => ⟨S100000x512, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  gather_S1024x512_S100000x1_S100000x512_1_0_n_n_0_1_1512_wf : GatherDims.WF S1024x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x512_S100000x512_1_0_0_1_n_n_wf : DotDims.WF S100000x512 S512x512 S100000x512 [1] [0] [0] [1] [] []

variable [Facts₀]

def gather_S1024x512_S100000x1_S100000x512_1_0_n_n_0_1_1512 : GatherDims S1024x512 S100000x1 S100000x512 where
  offsetDims := [1]
  collapsedSliceDims := [0]
  operandBatchingDims := []
  startIndicesBatchingDims := []
  startIndexMap := [0]
  indexVectorDim := 1
  sliceSizes := ![1, 512]
  wf := gather_S1024x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.KBody.lean ====
/-
  What the kernel body stores at one grid point, as ONE function of the input blocks and of which of the
  four chunk updates ran. The scratch accumulator is zeroed, each chunk whose overlap test holds adds the
  product of the rows' one-hot vectors over that chunk with the chunk's 256 rows of the folded prompt
  table, and the output block is the second layer applied to the rectified sum of the node product, the
  accumulator and the first bias.
-/
import proofs.«415421_j57019985821823_3_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Cert.KernelIdeal Cert.KernelIdeal.Gen

variable {F : FTy → Type} [FloatOps F]

theorem hz2 : (![0, 0] : Fin 2 → Nat) = fun _ => 0 := by funext a; fin_cases a <;> rfl
theorem hz1 : (![0] : Fin 1 → Nat) = fun _ => 0 := by funext a; fin_cases a; rfl

/-- A load of a whole buffer after several stores the newest of which wrote the whole buffer reads that
    newest store's value, whatever the older stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Rows 0–255, 256–511, 512–767 and 768–1023 of the folded prompt table, as the body loads them. -/
def chunk0 (x2 : Vec F S1024x512 .bf16) : Vec F S256x512 .bf16 :=
  View.ld x2 (Rect.unit ![0, 0] S256x512.size inb_S1024x512_S256x512_0_0)
def chunk1 (x2 : Vec F S1024x512 .bf16) : Vec F S256x512 .bf16 :=
  View.ld x2 (Rect.unit ![256, 0] S256x512.size inb_S1024x512_S256x512_256_0)
def chunk2 (x2 : Vec F S1024x512 .bf16) : Vec F S256x512 .bf16 :=
  View.ld x2 (Rect.unit ![512, 0] S256x512.size inb_S1024x512_S256x512_512_0)
def chunk3 (x2 : Vec F S1024x512 .bf16) : Vec F S256x512 .bf16 :=
  View.ld x2 (Rect.unit ![768, 0] S256x512.size inb_S1024x512_S256x512_768_0)

/-- The accumulator after the four guarded chunk updates: `b k` says whether chunk `k`'s update ran. -/
def accOf (b0 b1 b2 b3 : Bool) (x1 : Vec F S1000x1 .i32) (x2 : Vec F S1024x512 .bf16) : Vec F S1000x512 .f32 :=
  let a0 : Vec F S1000x512 .f32 := k0_pay2 (F := F)
  let a1 : Vec F S1000x512 .f32 := if b0 then k0_pay4 x1 (chunk0 x2) a0 else a0
  let a2 : Vec F S1000x512 .f32 := if b1 then k0_pay5 x1 (chunk1 x2) a1 else a1
  let a3 : Vec F S1000x512 .f32 := if b2 then k0_pay6 x1 (chunk2 x2) a2 else a2
  if b3 then k0_pay7 x1 (chunk3 x2) a3 else a3

/-- The output block the body stores, given which chunk updates ran. -/
def outOf (b0 b1 b2 b3 : Bool) (x0 : Vec F S1000x512 .f32) (x1 : Vec F S1000x1 .i32) (x2 : Vec F S1024x512 .bf16)
    (x3 : Vec F S512x512 .bf16) (x4 : Vec F S512 .f32) (x5 : Vec F S512x512 .bf16) (x6 : Vec F S512 .f32) :
    Vec F S1000x512 .f32 :=
  k0_pay1 (k0_pay8 x0) x3 (accOf b0 b1 b2 b3 x1 x2) x4 x5 x6

variable (m : (ℓ : Loc nD τ sig) → Buf (Elt F) ℓ)

/-- The tile's least and greatest graph word, as the body reads them at point `i` from the two tables the
    program computed before the launch. -/
def wmin (i : grid0.Coords) : BitVec 32 :=
  tbM0_0.view.readAt (Elt F) (Rect.unit (s := S100) (k0_off1 i) S1.size (k0_off1_inb i)).toLoadRect (tbl m 0)
    (Shape.Idx.first (numel1_S1.symm ▸ Nat.one_pos))
def wmax (i : grid0.Coords) : BitVec 32 :=
  tbM0_1.view.readAt (Elt F) (Rect.unit (s := S100) (k0_off1 i) S1.size (k0_off1_inb i)).toLoadRect (tbl m 1)
    (Shape.Idx.first (numel1_S1.symm ▸ Nat.one_pos))

/-- Whether chunk 0, 1, 2, 3 overlaps the tile's range of words at point `i`: the body's four tests, decided. -/
def ran0 (i : grid0.Coords) : Bool := decide (cond0_0 i (wmin m i) (wmax m i))
def ran1 (i : grid0.Coords) : Bool := decide (cond0_1 i (wmin m i) (wmax m i))
def ran2 (i : grid0.Coords) : Bool := decide (cond0_2 i (wmin m i) (wmax m i))
def ran3 (i : grid0.Coords) : Bool := decide (cond0_3 i (wmin m i) (wmax m i))

end Cert.KernelIdeal.Body

end
-- ==== Proof.KCases.lean ====
/- Each of the sixteen ways the four overlap tests can come out stores `outOf` at those four answers. -/
import proofs.«415421_j57019985821823_3_alg».proof.Proof.KBody

set_option maxRecDepth 16384

noncomputable section

namespace Cert.KernelIdeal.Body

open Idealize.ShloMosaic Idealize.ShloMosaic.TcCoe Idealize.ShloMosaic.Tactic Cert.KernelIdeal Cert.KernelIdeal.Gen
open Idealize.SL Idealize.SL.Sem

variable {F : FTy → Type} [FloatOps F]

/-- Case A (chunk updates run: true true true true): the block the body stores is `outOf` at these four answers. -/
theorem out0_A_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_A_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true true true true x0 x1 x2 x3 x4 x5 x6 := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_A
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case B (chunk updates run: true true true false): the block the body stores is `outOf` at these four answers. -/
theorem out0_B_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_B_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true true true false x0 x1 x2 x3 x4 x5 x6 := by
  unfold out0_B_7
  rw [View.read_writes_eq_canon _ _ _ (cover0_B_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case C (chunk updates run: true true false true): the block the body stores is `outOf` at these four answers. -/
theorem out0_C_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_C_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true true false true x0 x1 x2 x3 x4 x5 x6 := by
  unfold out0_C_7
  rw [View.read_writes_eq_canon _ _ _ (cover0_C_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_C
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case D (chunk updates run: true true false false): the block the body stores is `outOf` at these four answers. -/
theorem out0_D_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_D_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true true false false x0 x1 x2 x3 x4 x5 x6 := by
  unfold out0_D_7
  rw [View.read_writes_eq_canon _ _ _ (cover0_D_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_D
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case E (chunk updates run: true false true true): the block the body stores is `outOf` at these four answers. -/
theorem out0_E_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_E_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true false true true x0 x1 x2 x3 x4 x5 x6 := by
  unfold out0_E_7
  rw [View.read_writes_eq_canon _ _ _ (cover0_E_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_E
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case F (chunk updates run: true false true false): the block the body stores is `outOf` at these four answers. -/
theorem out0_F_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_F_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true false true false x0 x1 x2 x3 x4 x5 x6 := by
  unfold out0_F_7
  rw [View.read_writes_eq_canon _ _ _ (cover0_F_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_F
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case G (chunk updates run: true false false true): the block the body stores is `outOf` at these four answers. -/
theorem out0_G_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_G_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true false false true x0 x1 x2 x3 x4 x5 x6 := by
  unfold out0_G_7
  rw [View.read_writes_eq_canon _ _ _ (cover0_G_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_G
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case H (chunk updates run: true false false false): the block the body stores is `outOf` at these four answers. -/
theorem out0_H_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_H_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf true false false false x0 x1 x2 x3 x4 x5 x6 := by
  unfold out0_H_7
  rw [View.read_writes_eq_canon _ _ _ (cover0_H_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_H
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case I (chunk updates run: false true true true): the block the body stores is `outOf` at these four answers. -/
theorem out0_I_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_I_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false true true true x0 x1 x2 x3 x4 x5 x6 := by
  unfold out0_I_7
  rw [View.read_writes_eq_canon _ _ _ (cover0_I_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_I
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case J (chunk updates run: false true true false): the block the body stores is `outOf` at these four answers. -/
theorem out0_J_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_J_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false true true false x0 x1 x2 x3 x4 x5 x6 := by
  unfold out0_J_7
  rw [View.read_writes_eq_canon _ _ _ (cover0_J_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_J
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case K (chunk updates run: false true false true): the block the body stores is `outOf` at these four answers. -/
theorem out0_K_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_K_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false true false true x0 x1 x2 x3 x4 x5 x6 := by
  unfold out0_K_7
  rw [View.read_writes_eq_canon _ _ _ (cover0_K_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_K
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case L (chunk updates run: false true false false): the block the body stores is `outOf` at these four answers. -/
theorem out0_L_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_L_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false true false false x0 x1 x2 x3 x4 x5 x6 := by
  unfold out0_L_7
  rw [View.read_writes_eq_canon _ _ _ (cover0_L_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_L
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case M (chunk updates run: false false true true): the block the body stores is `outOf` at these four answers. -/
theorem out0_M_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_M_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false false true true x0 x1 x2 x3 x4 x5 x6 := by
  unfold out0_M_7
  rw [View.read_writes_eq_canon _ _ _ (cover0_M_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_M
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case N (chunk updates run: false false true false): the block the body stores is `outOf` at these four answers. -/
theorem out0_N_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_N_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false false true false x0 x1 x2 x3 x4 x5 x6 := by
  unfold out0_N_7
  rw [View.read_writes_eq_canon _ _ _ (cover0_N_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_N
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case O (chunk updates run: false false false true): the block the body stores is `outOf` at these four answers. -/
theorem out0_O_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_O_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false false false true x0 x1 x2 x3 x4 x5 x6 := by
  unfold out0_O_7
  rw [View.read_writes_eq_canon _ _ _ (cover0_O_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_O
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

/-- Case P (chunk updates run: false false false false): the block the body stores is `outOf` at these four answers. -/
theorem out0_P_eq (c : Dev nD) (i : grid0.Coords) (arg3 : Memref sig .tc .vmem S1000x512 .f32) (harg3 : arg3.IsWhole) (arg4 : Memref sig .tc .vmem S1000x1 .i32) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S1000x512 .f32) (harg10 : arg10.IsWhole) (arg11 : Memref sig .tc .vmem S1000x512 .f32) (harg11 : arg11.IsWhole)
    (x0 : Vec F S1000x512 .f32) (x1 : Vec F S1000x1 .i32) (x2 : Vec F S1024x512 .bf16) (x3 : Vec F S512x512 .bf16) (x4 : Vec F S512 .f32) (x5 : Vec F S512x512 .bf16) (x6 : Vec F S512 .f32) (xt0 : TbBuf0 (F := F) c tbM0_0) (xt1 : TbBuf0 (F := F) c tbM0_1) (hc0 : ¬cond0_0 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc1 : ¬cond0_1 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc2 : ¬cond0_2 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) (hc3 : ¬cond0_3 i (tbM0_0.view.readAt (Elt F) (Rect.unit (s := S100) (k0_off1 i) S1.size (k0_off1_inb i)).toLoadRect xt0 (Shape.Idx.first (numel1_S1.symm ▸ Nat.one_pos))) (tbM0_1.view.readAt (Elt F) (Rect.unit (s := S100) (k0_off1 i) S1.size (k0_off1_inb i)).toLoadRect xt1 (Shape.Idx.first (numel1_S1.symm ▸ Nat.one_pos)))) :
    out0_P_7 c i arg3 harg3 arg4 harg4 arg5 harg5 arg6 harg6 arg7 harg7 arg8 harg8 arg9 harg9 arg10 harg10 arg11 harg11 x0 x1 x2 x3 x4 x5 x6 xt0 xt1 hc0 hc1 hc2 hc3 = outOf false false false false x0 x1 x2 x3 x4 x5 x6 := by
  unfold out0_P_7
  rw [View.read_writes_eq_canon _ _ _ (cover0_P_7 c i arg3 harg3 arg4 harg4 arg5 harg5 arg6 harg6 arg7 harg7 arg8 harg8 arg9 harg9 arg10 harg10 arg11 harg11 x0 x1 x2 x3 x4 x5 x6 xt0 xt1 hc0 hc1 hc2 hc3)]
  unfold kernelRun0_P
  dsimp only
  sl_unfold_words
  rw [View.canon_unit_zero hz2]
  simp only [View.readAt_eq_ld, harg3.read_unread, harg4.read_unread, harg5.read_unread, harg6.read_unread,
    harg7.read_unread, harg8.read_unread, harg9.read_unread, View.ld_unit_zero (S := S1000x512) hz2,
    View.ld_unit_zero (S := S512x512) hz2, View.ld_unit_zero (S := S512) hz1, View.ld_unit_zero (S := S1000x1) hz2,
    View.readCov_unit_zero (S := S1000x512) _ hz2, readCov_cons_whole (S := S1000x512) _ hz2]
  rfl

variable (m : (ℓ : Loc nD τ sig) → Buf (Elt F) ℓ)

/-- What the output's staging buffer holds after the body at point `t`: `outOf` at the four decided overlap tests
    and the point's input blocks (the sixteen cases above, one per way the tests come out; scratch/KPoint.template
    laid out per case, @B0@..@B3@ the case's answers). -/
theorem outsAt0_eq (hO : Ok m) (c : Dev nD) (t : Fin (cfgM m hO).N) :
    outsAt0 m hO c t = outOf (ran0 m (grid0.coords t)) (ran1 m (grid0.coords t)) (ran2 m (grid0.coords t)) (ran3 m (grid0.coords t))
      (iblk m hO c 0 t) (iblk m hO c 1 t) (iblk m hO c 2 t) (iblk m hO c 3 t) (iblk m hO c 4 t) (iblk m hO c 5 t) (iblk m hO c 6 t) := by
  by_cases h0 : cond0_0 (grid0.coords t) (wmin m (grid0.coords t)) (wmax m (grid0.coords t)) <;>
  by_cases h1 : cond0_1 (grid0.coords t) (wmin m (grid0.coords t)) (wmax m (grid0.coords t)) <;>
  by_cases h2 : cond0_2 (grid0.coords t) (wmin m (grid0.coords t)) (wmax m (grid0.coords t)) <;>
  by_cases h3 : cond0_3 (grid0.coords t) (wmin m (grid0.coords t)) (wmax m (grid0.coords t))
  · exact (outsAt0_A m hO c t h0 h1 h2 h3).trans ((out0_A_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = true from decide_eq_true h1,
        show ran2 m (grid0.coords t) = true from decide_eq_true h2, show ran3 m (grid0.coords t) = true from decide_eq_true h3]))
  · exact (outsAt0_B m hO c t h0 h1 h2 h3).trans ((out0_B_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = true from decide_eq_true h1,
        show ran2 m (grid0.coords t) = true from decide_eq_true h2, show ran3 m (grid0.coords t) = false from decide_eq_false h3]))
  · exact (outsAt0_C m hO c t h0 h1 h2 h3).trans ((out0_C_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = true from decide_eq_true h1,
        show ran2 m (grid0.coords t) = false from decide_eq_false h2, show ran3 m (grid0.coords t) = true from decide_eq_true h3]))
  · exact (outsAt0_D m hO c t h0 h1 h2 h3).trans ((out0_D_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = true from decide_eq_true h1,
        show ran2 m (grid0.coords t) = false from decide_eq_false h2, show ran3 m (grid0.coords t) = false from decide_eq_false h3]))
  · exact (outsAt0_E m hO c t h0 h1 h2 h3).trans ((out0_E_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = false from decide_eq_false h1,
        show ran2 m (grid0.coords t) = true from decide_eq_true h2, show ran3 m (grid0.coords t) = true from decide_eq_true h3]))
  · exact (outsAt0_F m hO c t h0 h1 h2 h3).trans ((out0_F_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = false from decide_eq_false h1,
        show ran2 m (grid0.coords t) = true from decide_eq_true h2, show ran3 m (grid0.coords t) = false from decide_eq_false h3]))
  · exact (outsAt0_G m hO c t h0 h1 h2 h3).trans ((out0_G_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = false from decide_eq_false h1,
        show ran2 m (grid0.coords t) = false from decide_eq_false h2, show ran3 m (grid0.coords t) = true from decide_eq_true h3]))
  · exact (outsAt0_H m hO c t h0 h1 h2 h3).trans ((out0_H_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = true from decide_eq_true h0, show ran1 m (grid0.coords t) = false from decide_eq_false h1,
        show ran2 m (grid0.coords t) = false from decide_eq_false h2, show ran3 m (grid0.coords t) = false from decide_eq_false h3]))
  · exact (outsAt0_I m hO c t h0 h1 h2 h3).trans ((out0_I_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = true from decide_eq_true h1,
        show ran2 m (grid0.coords t) = true from decide_eq_true h2, show ran3 m (grid0.coords t) = true from decide_eq_true h3]))
  · exact (outsAt0_J m hO c t h0 h1 h2 h3).trans ((out0_J_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = true from decide_eq_true h1,
        show ran2 m (grid0.coords t) = true from decide_eq_true h2, show ran3 m (grid0.coords t) = false from decide_eq_false h3]))
  · exact (outsAt0_K m hO c t h0 h1 h2 h3).trans ((out0_K_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = true from decide_eq_true h1,
        show ran2 m (grid0.coords t) = false from decide_eq_false h2, show ran3 m (grid0.coords t) = true from decide_eq_true h3]))
  · exact (outsAt0_L m hO c t h0 h1 h2 h3).trans ((out0_L_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = true from decide_eq_true h1,
        show ran2 m (grid0.coords t) = false from decide_eq_false h2, show ran3 m (grid0.coords t) = false from decide_eq_false h3]))
  · exact (outsAt0_M m hO c t h0 h1 h2 h3).trans ((out0_M_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = false from decide_eq_false h1,
        show ran2 m (grid0.coords t) = true from decide_eq_true h2, show ran3 m (grid0.coords t) = true from decide_eq_true h3]))
  · exact (outsAt0_N m hO c t h0 h1 h2 h3).trans ((out0_N_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = false from decide_eq_false h1,
        show ran2 m (grid0.coords t) = true from decide_eq_true h2, show ran3 m (grid0.coords t) = false from decide_eq_false h3]))
  · exact (outsAt0_O m hO c t h0 h1 h2 h3).trans ((out0_O_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = false from decide_eq_false h1,
        show ran2 m (grid0.coords t) = false from decide_eq_false h2, show ran3 m (grid0.coords t) = true from decide_eq_true h3]))
  · exact (outsAt0_P m hO c t h0 h1 h2 h3).trans ((out0_P_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) (iblk m hO c 6 t) (tbl m 0) (tbl m 1) h0 h1 h2 h3).trans (by
      rw [show ran0 m (grid0.coords t) = false from decide_eq_false h0, show ran1 m (grid0.coords t) = false from decide_eq_false h1,
        show ran2 m (grid0.coords t) = false from decide_eq_false h2, show ran3 m (grid0.coords t) = false from decide_eq_false h3]))

end Cert.KernelIdeal.Body

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Chunks.lean ====
/-
  The arithmetic of the chunked one-hot gather on the extended reals. A row's word `w` selects row `w`
  of a table of 1024 rows. The table is cut into four chunks of 256 rows; the product of the row's
  one-hot vector over a chunk with that chunk is the table's row `w` when `w` lies in the chunk and
  zero otherwise (only `0 * x = 0` and `1 * x = x` are used, so no entry need be finite). Adding,
  from zero, the products of any set of chunks that contains the chunk of `w` therefore gives row `w`.
-/
import Mathlib.Data.EReal.Basic
import Mathlib.Algebra.BigOperators.Fin

namespace Cert.Chunks

open Finset

/-- One chunk's product at one entry: over the 256 rows `lo + g` of the chunk, the one-hot weights of
    the word `w` against the table's column `P`. -/
theorem chunk_term (lo w : ℕ) (P : ℕ → EReal) :
    (∑ g : Fin 256, (if g.val + lo = w then (1 : EReal) else 0) * P (g.val + lo))
      = if lo ≤ w ∧ w < lo + 256 then P w else 0 := by
  split_ifs with h
  · obtain ⟨h1, h2⟩ := h
    rw [Finset.sum_eq_single (⟨w - lo, by omega⟩ : Fin 256)]
    · have e : w - lo + lo = w := by omega
      simp only [e, if_true, one_mul]
    · intro g _ hg
      have : ¬ g.val + lo = w := fun e => hg (Fin.ext (by simp only; omega))
      rw [if_neg this, zero_mul]
    · intro hn; exact absurd (Finset.mem_univ _) hn
  · refine Finset.sum_eq_zero fun g _ => ?_
    have hg := g.isLt
    have : ¬ g.val + lo = w := fun e => h ⟨by omega, by omega⟩
    rw [if_neg this, zero_mul]

/-- A guarded update: the accumulator gains the chunk's product when the chunk's test holds. -/
noncomputable def step (b : Bool) (a T : EReal) : EReal := if b then a + T else a

/-- The four guarded updates from zero, each chunk contributing the table's row `w` when `w` lies in
    it and zero otherwise, end at row `w` as soon as the chunk that holds `w` is among those run. -/
theorem acc_eq (b0 b1 b2 b3 : Bool) (w : ℕ) (hw : w < 1024) (P : ℕ → EReal)
    (h0 : w < 256 → b0 = true) (h1 : 256 ≤ w → w < 512 → b1 = true)
    (h2 : 512 ≤ w → w < 768 → b2 = true) (h3 : 768 ≤ w → b3 = true) :
    step b3 (step b2 (step b1 (step b0 0
        (if 0 ≤ w ∧ w < 0 + 256 then P w else 0))
        (if 256 ≤ w ∧ w < 256 + 256 then P w else 0))
        (if 512 ≤ w ∧ w < 512 + 256 then P w else 0))
        (if 768 ≤ w ∧ w < 768 + 256 then P w else 0) = P w := by
  by_cases c0 : w < 256
  · have e0 := h0 c0
    have n1 : ¬ (256 ≤ w ∧ w < 256 + 256) := by omega
    have n2 : ¬ (512 ≤ w ∧ w < 512 + 256) := by omega
    have n3 : ¬ (768 ≤ w ∧ w < 768 + 256) := by omega
    have p0 : 0 ≤ w ∧ w < 0 + 256 := by omega
    simp only [step, e0, if_true, if_pos p0, if_neg n1, if_neg n2, if_neg n3, zero_add, add_zero, ite_self]
  by_cases c1 : w < 512
  · have e1 := h1 (by omega) c1
    have n0 : ¬ (0 ≤ w ∧ w < 0 + 256) := by omega
    have n2 : ¬ (512 ≤ w ∧ w < 512 + 256) := by omega
    have n3 : ¬ (768 ≤ w ∧ w < 768 + 256) := by omega
    have p1 : 256 ≤ w ∧ w < 256 + 256 := by omega
    simp only [step, e1, if_true, if_pos p1, if_neg n0, if_neg n2, if_neg n3, zero_add, add_zero, ite_self]
  by_cases c2 : w < 768
  · have e2 := h2 (by omega) c2
    have n0 : ¬ (0 ≤ w ∧ w < 0 + 256) := by omega
    have n1 : ¬ (256 ≤ w ∧ w < 256 + 256) := by omega
    have n3 : ¬ (768 ≤ w ∧ w < 768 + 256) := by omega
    have p2 : 512 ≤ w ∧ w < 512 + 256 := by omega
    simp only [step, e2, if_true, if_pos p2, if_neg n0, if_neg n1, if_neg n3, zero_add, add_zero, ite_self]
  · have e3 := h3 (by omega)
    have n0 : ¬ (0 ≤ w ∧ w < 0 + 256) := by omega
    have n1 : ¬ (256 ≤ w ∧ w < 256 + 256) := by omega
    have n2 : ¬ (512 ≤ w ∧ w < 512 + 256) := by omega
    have p3 : 768 ≤ w ∧ w < 768 + 256 := by omega
    simp only [step, e3, if_true, if_pos p3, if_neg n0, if_neg n1, if_neg n2, zero_add, add_zero, ite_self]

end Cert.Chunks
-- ==== Proof.Words.lean ====
/-
  Signed 32-bit words as integers: what the two tables of tile minima and maxima, the overlap tests
  of the four chunks, the clamp of a row number into [0, 1023] and the one-hot comparison say about
  the integers the words denote.
-/
import Idealize.ShloMosaic.PureOps.Reduce
import Idealize.ShloMosaic.PureOps.Ideal

namespace Cert.Words

open Idealize.ShloMosaic

/-- The signed minimum of two words denotes the minimum of the two integers. -/
theorem toInt_minsi {w : Nat} (a b : BitVec w) : (IntOp.minsi a b).toInt = min a.toInt b.toInt := by
  unfold IntOp.minsi
  simp only [BitVec.slt, decide_eq_true_eq]
  split <;> omega

/-- The signed maximum of two words denotes the maximum of the two integers. -/
theorem toInt_maxsi {w : Nat} (a b : BitVec w) : (IntOp.maxsi a b).toInt = max a.toInt b.toInt := by
  unfold IntOp.maxsi
  simp only [BitVec.slt, decide_eq_true_eq]
  split <;> omega

/-- A fold of signed minima lies below its initial word and below every word folded. -/
theorem fold_minsi_le {ι : Type} [DecidableEq ι] (s : Finset ι) (f : ι → BitVec 32) (init : BitVec 32) :
    (s.fold IntOp.minsi init f).toInt ≤ init.toInt
      ∧ ∀ i ∈ s, (s.fold IntOp.minsi init f).toInt ≤ (f i).toInt := by
  induction s using Finset.induction_on with
  | empty => simp
  | insert a s ha ih =>
    rw [Finset.fold_insert ha, toInt_minsi]
    refine ⟨le_trans (min_le_right _ _) ih.1, fun i hi => ?_⟩
    rcases Finset.mem_insert.1 hi with rfl | hi
    · exact min_le_left _ _
    · exact le_trans (min_le_right _ _) (ih.2 i hi)

/-- A fold of signed maxima lies above its initial word and above every word folded. -/
theorem le_fold_maxsi {ι : Type} [DecidableEq ι] (s : Finset ι) (f : ι → BitVec 32) (init : BitVec 32) :
    init.toInt ≤ (s.fold IntOp.maxsi init f).toInt
      ∧ ∀ i ∈ s, (f i).toInt ≤ (s.fold IntOp.maxsi init f).toInt := by
  induction s using Finset.induction_on with
  | empty => simp
  | insert a s ha ih =>
    rw [Finset.fold_insert ha, toInt_maxsi]
    refine ⟨le_trans ih.1 (le_max_right _ _), fun i hi => ?_⟩
    rcases Finset.mem_insert.1 hi with rfl | hi
    · exact le_max_left _ _
    · exact le_trans (ih.2 i hi) (le_max_right _ _)

/-- The overlap test of a chunk `[lo, hi]` against a tile's least word `tmin` and greatest word `tmax`,
    as the kernel computes it (two signed comparisons, their conjunction widened and compared with
    zero), holds exactly when `lo ≤ tmax` and `tmin ≤ hi` as integers. -/
theorem overlap_iff (tmin tmax lo hi : BitVec 32) :
    (Scalar.cmpi .ne (Scalar.extui (Scalar.andi (Scalar.cmpi .sge tmax lo) (Scalar.cmpi .sle tmin hi))) 0#32) = 1#1
      ↔ lo.toInt ≤ tmax.toInt ∧ tmin.toInt ≤ hi.toInt := by
  by_cases h1 : lo.toInt ≤ tmax.toInt <;> by_cases h2 : tmin.toInt ≤ hi.toInt <;>
    simp [Scalar.cmpi, Scalar.extui, Scalar.andi, IntOp.cmpi, IntOp.andi, BitVec.sle, h1, h2]

/-- A word clamped below at 0 and above at 1023 denotes the clamped integer. -/
theorem toInt_clamp (s : BitVec 32) :
    (IntOp.minsi 1023#32 (IntOp.maxsi 0#32 s)).toInt = min 1023 (max 0 s.toInt) := by
  rw [toInt_minsi, toInt_maxsi]; rfl

/-- The clamped word, read unsigned, is the integer `s` denotes cut off at 0 and then at 1023. -/
theorem toNat_clamp (s : BitVec 32) :
    (IntOp.minsi 1023#32 (IntOp.maxsi 0#32 s)).toNat = min s.toInt.toNat 1023 := by
  have h := toInt_clamp s
  have e := BitVec.toInt_eq_toNat_cond (IntOp.minsi 1023#32 (IntOp.maxsi 0#32 s))
  have := (IntOp.minsi 1023#32 (IntOp.maxsi 0#32 s)).isLt
  omega

/-- The equality comparison of two words yields the set bit exactly when the words are equal. -/
theorem cmpi_eq_iff (x y : BitVec 32) : IntOp.cmpi .eq x y = 1#1 ↔ x = y := by
  show BitVec.ofBool (x == y) = 1#1 ↔ x = y
  cases hb : (x == y)
  · have hne : x ≠ y := fun e => by subst e; simp at hb
    exact ⟨fun e => absurd e (by decide), fun e => absurd e hne⟩
  · exact ⟨fun _ => eq_of_beq hb, fun _ => rfl⟩

/-- Column `g` of a chunk that starts at row `lo` of the table is hit by the word `w` exactly when
    `w`, read unsigned, is `g + lo`. -/
theorem onehot_iff (g lo : Nat) (w : BitVec 32) (h : g + lo < 2 ^ 32) :
    IntOp.cmpi .eq (IntOp.addi (BitVec.ofNat 32 g) (BitVec.ofNat 32 lo)) w = 1#1 ↔ g + lo = w.toNat := by
  have hs : (IntOp.addi (BitVec.ofNat 32 g) (BitVec.ofNat 32 lo)).toNat = g + lo := by
    unfold IntOp.addi
    rw [BitVec.toNat_add, BitVec.toNat_ofNat, BitVec.toNat_ofNat]; omega
  rw [cmpi_eq_iff]
  constructor
  · intro e; rw [← e, hs]
  · intro e; exact BitVec.eq_of_toNat_eq (by rw [hs, e])

end Cert.Words
-- ==== Proof.KPay.lean ====
/-
  The body's payloads read at one entry, on the extended reals.

  A chunk update adds, at entry `(r, k)`, the sum over the chunk's 256 rows `g` of the one-hot weight
  (1 when row `g + lo` is the row's clamped word, else 0) times the chunk's entry `(g, k)`. Read through
  the chunk arithmetic, the accumulator after the four guarded updates is the table's row selected by the
  word, provided the chunk that holds the word ran. The output entry `(r, d)` is the second layer applied
  to the rectified sum of the node product, the accumulator and the first bias.
-/
import proofs.«415421_j57019985821823_3_alg».proof.Proof.KBody
import proofs.«415421_j57019985821823_3_alg».proof.Proof.LibMatProd
import proofs.«415421_j57019985821823_3_alg».proof.Proof.Chunks
import proofs.«415421_j57019985821823_3_alg».proof.Proof.Words
import Idealize.ShloMosaic.Lib.ValueLayout

set_option maxRecDepth 16384

noncomputable section

namespace Cert.KernelIdeal.Body

open Idealize.ShloMosaic Idealize.ShloMosaic.TcCoe Idealize.ShloMosaic.ValueIdx Cert.KernelIdeal Cert.KernelIdeal.Gen

variable {F : FTy → Type} [FloatOps F]

/-- One chunk update, for a chunk that starts at row `lo` of the table: the accumulator `v62` plus the
    one-hot rows of the words `v4` against columns `lo … lo + 255`, times the chunk `v60`. -/
def chunkPay (lo : BitVec 32) (v4 : Vec F S1000x1 .i32) (v60 : Vec F S256x512 .bf16) (v62 : Vec F S1000x512 .f32) :
    FVec F S1000x512 .f32 :=
  shapeCast S1000x512 (addf v62 (matmul dot_S1000x256_S256x512_S1000x512_1_0_0_1_n_n none
    (truncf .bf16 (sitofp .f32 (extui 32 (cmpi .eq
      (addi (iota .tc S1000x256 32 [1] iota_S1000x256_d1_w32) (broadcast S1000x256 lo))
      (broadcastTo S1000x256 (k0_pay3 v4) broadcasts_S1000x1_S1000x256)) natLt_1_32)) bitsLt_bf16_f32)
    (shapeCast S256x512 v60 shapeCasts_S256x512_S256x512) (constant S1000x512 .f32 0x00000000#32)))
    shapeCasts_S1000x512_S1000x512

theorem pay4_eq (v4 : Vec F S1000x1 .i32) (v60 : Vec F S256x512 .bf16) (v62 : Vec F S1000x512 .f32) :
    k0_pay4 v4 v60 v62 = chunkPay (BitVec.ofNat 32 0) v4 v60 v62 := rfl
theorem pay5_eq (v4 : Vec F S1000x1 .i32) (v60 : Vec F S256x512 .bf16) (v62 : Vec F S1000x512 .f32) :
    k0_pay5 v4 v60 v62 = chunkPay (BitVec.ofNat 32 256) v4 v60 v62 := rfl
theorem pay6_eq (v4 : Vec F S1000x1 .i32) (v60 : Vec F S256x512 .bf16) (v62 : Vec F S1000x512 .f32) :
    k0_pay6 v4 v60 v62 = chunkPay (BitVec.ofNat 32 512) v4 v60 v62 := rfl
theorem pay7_eq (v4 : Vec F S1000x1 .i32) (v60 : Vec F S256x512 .bf16) (v62 : Vec F S1000x512 .f32) :
    k0_pay7 v4 v60 v62 = chunkPay (BitVec.ofNat 32 768) v4 v60 v62 := rfl

/-- A guarded update as a function of the accumulator. -/
def stepF (b : Bool) (f : Vec F S1000x512 .f32 → Vec F S1000x512 .f32) (a : Vec F S1000x512 .f32) :
    Vec F S1000x512 .f32 := if b then f a else a

theorem stepF_apply (b : Bool) (f : Vec F S1000x512 .f32 → Vec F S1000x512 .f32) (a : Vec F S1000x512 .f32)
    (i : S1000x512.Idx) : stepF b f a i = if b then f a i else a i := by
  unfold stepF; split <;> rfl

/-- The accumulator as four nested guarded updates of the zeroed scratch. -/
theorem accOf_eq (b0 b1 b2 b3 : Bool) (x1 : Vec F S1000x1 .i32) (x2 : Vec F S1024x512 .bf16) :
    accOf b0 b1 b2 b3 x1 x2
      = stepF b3 (chunkPay (BitVec.ofNat 32 768) x1 (chunk3 x2))
          (stepF b2 (chunkPay (BitVec.ofNat 32 512) x1 (chunk2 x2))
            (stepF b1 (chunkPay (BitVec.ofNat 32 256) x1 (chunk1 x2))
              (stepF b0 (chunkPay (BitVec.ofNat 32 0) x1 (chunk0 x2)) (k0_pay2 (F := F))))) := rfl

/-! ## At the extended reals -/

/-- A comparison bit widened to 32 bits and converted to a float is 1 or 0. -/
theorem bit_to_ereal (b : BitVec 1) : (((b.setWidth 32).toInt : ℝ) : EReal) = if b = 1#1 then 1 else 0 := by
  by_cases h : b = 1#1
  · subst h
    have e : ((1#1 : BitVec 1).setWidth 32).toInt = 1 := by decide
    rw [e, if_pos rfl]; simp
  · have h0 := eq_zero_of_ne_one h
    subst h0
    have e : ((0#1 : BitVec 1).setWidth 32).toInt = 0 := by decide
    rw [e, if_neg (by decide)]; simp

/-- The two matrix products of the body as sums over the shared axis. -/
theorem mm_chunk (l : FVec Ideal S1000x256 .bf16) (r : FVec Ideal S256x512 .bf16) (a : Fin 1000) (b : Fin 512) :
    matmul dot_S1000x256_S256x512_S1000x512_1_0_0_1_n_n none l r (constant S1000x512 .f32 0x00000000#32) (ix2 a b)
      = ∑ g : Fin 256, l (ix2 a g) * r (ix2 g b) :=
  Cert.LibMatProd.matmul_zero_apply _ rfl none l r a b
theorem mm_layer (l : FVec Ideal S1000x512 .bf16) (r : FVec Ideal S512x512 .bf16) (a : Fin 1000) (b : Fin 512) :
    matmul dot_S1000x512_S512x512_S1000x512_1_0_0_1_n_n none l r (constant S1000x512 .f32 0x00000000#32) (ix2 a b)
      = ∑ k : Fin 512, l (ix2 a k) * r (ix2 k b) :=
  Cert.LibMatProd.matmul_zero_apply _ rfl none l r a b

/-- The one-hot weight of row `r` at column `g` of the chunk that starts at `lo`. -/
theorem onehot_apply (lo : ℕ) (hlo : lo + 256 ≤ 1024) (v4 : Vec Ideal S1000x1 .i32) (r : Fin 1000) (g : Fin 256) :
    (truncf .bf16 (sitofp .f32 (extui 32 (cmpi .eq
        (addi (iota .tc S1000x256 32 [1] iota_S1000x256_d1_w32) (broadcast S1000x256 (BitVec.ofNat 32 lo)))
        (broadcastTo S1000x256 (k0_pay3 v4) broadcasts_S1000x1_S1000x256)) natLt_1_32)) bitsLt_bf16_f32
          : FVec Ideal S1000x256 .bf16) (ix2 r g)
      = if g.val + lo = (v4 (ix2 r (0 : Fin 1))).toNat then (1 : EReal) else 0 := by
  have hb : broadcastTo S1000x256 (k0_pay3 v4) broadcasts_S1000x1_S1000x256 (ix2 r g) = v4 (ix2 r (0 : Fin 1)) := by
    unfold k0_pay3
    rw [shapeCast_self]
    exact broadcastTo_apply v4 _ (ix2 r g) (ix2 r (0 : Fin 1)) (fun a => by
      match a with
      | ⟨0, _⟩ => show r.val = if (1000 : ℕ) = 1 then 0 else r.val; rw [if_neg (by decide)]
      | ⟨1, _⟩ => show 0 = if (1 : ℕ) = 1 then 0 else g.val; rw [if_pos rfl])
  show ((((IntOp.cmpi .eq (IntOp.addi (iota .tc S1000x256 32 [1] iota_S1000x256_d1_w32 (ix2 r g)) (BitVec.ofNat 32 lo))
      (broadcastTo S1000x256 (k0_pay3 v4) broadcasts_S1000x1_S1000x256 (ix2 r g))).setWidth 32).toInt : ℝ) : EReal) = _
  rw [iota_single_apply, hb, bit_to_ereal]
  exact if_congr (Cert.Words.onehot_iff g.val lo _ (by have := g.isLt; omega)) rfl rfl

/-- One chunk update at entry `(r, k)`. -/
theorem chunkPay_apply (lo : ℕ) (hlo : lo + 256 ≤ 1024) (v4 : Vec Ideal S1000x1 .i32) (v60 : Vec Ideal S256x512 .bf16)
    (v62 : Vec Ideal S1000x512 .f32) (r : Fin 1000) (k : Fin 512) :
    chunkPay (BitVec.ofNat 32 lo) v4 v60 v62 (ix2 r k)
      = v62 (ix2 r k)
        + ∑ g : Fin 256, (if g.val + lo = (v4 (ix2 r (0 : Fin 1))).toNat then (1 : EReal) else 0) * v60 (ix2 g k) := by
  unfold chunkPay
  rw [shapeCast_self]
  refine (addf_apply _ _ _).trans ?_
  rw [mm_chunk]
  refine congrArg (v62 (ix2 r k) + ·) (Finset.sum_congr rfl fun g _ => ?_)
  rw [onehot_apply lo hlo v4 r g, shapeCast_self]

/-- Row `g` of a chunk is row `g + lo` of the table. -/
theorem chunk0_apply (x2 : Vec F S1024x512 .bf16) (g : Fin 256) (k : Fin 512) :
    chunk0 x2 (ix2 g k) = x2 (ix2 (⟨g.val + 0, by omega⟩ : Fin 1024) k) :=
  congrArg x2 (funext fun a => Fin.ext (by
    match a with
    | ⟨0, _⟩ => show 0 + 1 * g.val = g.val + 0; omega
    | ⟨1, _⟩ => show 0 + 1 * k.val = k.val; omega))
theorem chunk1_apply (x2 : Vec F S1024x512 .bf16) (g : Fin 256) (k : Fin 512) :
    chunk1 x2 (ix2 g k) = x2 (ix2 (⟨g.val + 256, by omega⟩ : Fin 1024) k) :=
  congrArg x2 (funext fun a => Fin.ext (by
    match a with
    | ⟨0, _⟩ => show 256 + 1 * g.val = g.val + 256; omega
    | ⟨1, _⟩ => show 0 + 1 * k.val = k.val; omega))
theorem chunk2_apply (x2 : Vec F S1024x512 .bf16) (g : Fin 256) (k : Fin 512) :
    chunk2 x2 (ix2 g k) = x2 (ix2 (⟨g.val + 512, by omega⟩ : Fin 1024) k) :=
  congrArg x2 (funext fun a => Fin.ext (by
    match a with
    | ⟨0, _⟩ => show 512 + 1 * g.val = g.val + 512; omega
    | ⟨1, _⟩ => show 0 + 1 * k.val = k.val; omega))
theorem chunk3_apply (x2 : Vec F S1024x512 .bf16) (g : Fin 256) (k : Fin 512) :
    chunk3 x2 (ix2 g k) = x2 (ix2 (⟨g.val + 768, by omega⟩ : Fin 1024) k) :=
  congrArg x2 (funext fun a => Fin.ext (by
    match a with
    | ⟨0, _⟩ => show 768 + 1 * g.val = g.val + 768; omega
    | ⟨1, _⟩ => show 0 + 1 * k.val = k.val; omega))

/-- The zeroed scratch at an entry. -/
theorem pay2_apply (i : S1000x512.Idx) : (k0_pay2 (F := Ideal)) i = 0 := by
  unfold k0_pay2
  rw [shapeCast_self]
  exact Ideal.ofBits_zero_f32

/-- THE ACCUMULATOR at entry `(r, k)`: the table's row selected by row `r`'s word, when that word is below
    1024 and the chunk that holds it ran. -/
theorem accOf_apply (b0 b1 b2 b3 : Bool) (x1 : Vec Ideal S1000x1 .i32) (x2 : Vec Ideal S1024x512 .bf16)
    (r : Fin 1000) (k : Fin 512) (hw : (x1 (ix2 r (0 : Fin 1))).toNat < 1024)
    (h0 : (x1 (ix2 r (0 : Fin 1))).toNat < 256 → b0 = true)
    (h1 : 256 ≤ (x1 (ix2 r (0 : Fin 1))).toNat → (x1 (ix2 r (0 : Fin 1))).toNat < 512 → b1 = true)
    (h2 : 512 ≤ (x1 (ix2 r (0 : Fin 1))).toNat → (x1 (ix2 r (0 : Fin 1))).toNat < 768 → b2 = true)
    (h3 : 768 ≤ (x1 (ix2 r (0 : Fin 1))).toNat → b3 = true) :
    accOf b0 b1 b2 b3 x1 x2 (ix2 r k) = x2 (ix2 (⟨(x1 (ix2 r (0 : Fin 1))).toNat, hw⟩ : Fin 1024) k) := by
  -- column k of the table, as a function of the row number
  let P : ℕ → EReal := fun g => if h : g < 1024 then x2 (ix2 (⟨g, h⟩ : Fin 1024) k) else 0
  have hP : ∀ (g : ℕ) (h : g < 1024), x2 (ix2 (⟨g, h⟩ : Fin 1024) k) = P g := fun g h => by
    show _ = (if h' : g < 1024 then x2 (ix2 (⟨g, h'⟩ : Fin 1024) k) else 0)
    rw [dif_pos h]
  -- one guarded update at the entry
  have key : ∀ (b : Bool) (lo : ℕ) (hlo : lo + 256 ≤ 1024) (ch : Vec Ideal S256x512 .bf16)
      (hch : ∀ g : Fin 256, ch (ix2 g k) = P (g.val + lo)) (a : Vec Ideal S1000x512 .f32) (α : EReal)
      (ha : a (ix2 r k) = α),
      stepF b (chunkPay (BitVec.ofNat 32 lo) x1 ch) a (ix2 r k)
        = Cert.Chunks.step b α (if lo ≤ (x1 (ix2 r (0 : Fin 1))).toNat ∧ (x1 (ix2 r (0 : Fin 1))).toNat < lo + 256
            then P (x1 (ix2 r (0 : Fin 1))).toNat else 0) := by
    intro b lo hlo ch hch a α ha
    rw [stepF_apply, chunkPay_apply lo hlo, ha, ← Cert.Chunks.chunk_term lo _ P]
    unfold Cert.Chunks.step
    refine if_congr Iff.rfl (congrArg (α + ·) (Finset.sum_congr rfl fun g _ => ?_)) rfl
    rw [hch g]
  have s0 := key b0 0 (by omega) (chunk0 x2) (fun g => (chunk0_apply x2 g k).trans (hP _ _)) _ _ (pay2_apply (ix2 r k))
  have s1 := key b1 256 (by omega) (chunk1 x2) (fun g => (chunk1_apply x2 g k).trans (hP _ _)) _ _ s0
  have s2 := key b2 512 (by omega) (chunk2 x2) (fun g => (chunk2_apply x2 g k).trans (hP _ _)) _ _ s1
  have s3 := key b3 768 (by omega) (chunk3 x2) (fun g => (chunk3_apply x2 g k).trans (hP _ _)) _ _ s2
  rw [accOf_eq, s3, Cert.Chunks.acc_eq b0 b1 b2 b3 _ hw P h0 h1 h2 h3]
  exact dif_pos hw

/-- A bias row broadcast down the block, at an entry. -/
theorem bias_apply (v : Vec Ideal S512 .f32) (r : Fin 1000) (k : Fin 512) :
    broadcastTo S1000x512 (shapeCast S1x512 v shapeCasts_S512_S1x512) broadcasts_S1x512_S1000x512 (ix2 r k) = v (ix1 k) := by
  rw [broadcastTo_1b_ab_apply, shapeCast_a_1a_apply]

/-- THE OUTPUT BLOCK at entry `(r, d)`. -/
theorem outOf_apply (b0 b1 b2 b3 : Bool) (x0 : Vec Ideal S1000x512 .f32) (x1 : Vec Ideal S1000x1 .i32)
    (x2 : Vec Ideal S1024x512 .bf16) (x3 : Vec Ideal S512x512 .bf16) (x4 : Vec Ideal S512 .f32)
    (x5 : Vec Ideal S512x512 .bf16) (x6 : Vec Ideal S512 .f32) (r : Fin 1000) (d : Fin 512) :
    outOf b0 b1 b2 b3 x0 x1 x2 x3 x4 x5 x6 (ix2 r d)
      = (∑ k : Fin 512,
          max (((∑ q : Fin 512, x0 (ix2 r q) * x3 (ix2 q k)) + accOf b0 b1 b2 b3 x1 x2 (ix2 r k)) + x4 (ix1 k))
            (Ideal.ofBits .f32 0x00000000#32) * x5 (ix2 k d))
        + x6 (ix1 d) := by
  unfold outOf k0_pay1 k0_pay8
  simp only [shapeCast_self]
  refine (addf_apply _ _ _).trans ?_
  rw [mm_layer, bias_apply]
  refine congrArg (· + x6 (ix1 d)) (Finset.sum_congr rfl fun k _ => ?_)
  refine congrArg (· * x5 (ix2 k d)) ?_
  show max (addf (addf (matmul dot_S1000x512_S512x512_S1000x512_1_0_0_1_n_n none (truncf .bf16 x0 bitsLt_bf16_f32) x3
      (constant S1000x512 .f32 0x00000000#32)) (accOf b0 b1 b2 b3 x1 x2))
      (broadcastTo S1000x512 (shapeCast S1x512 x4 shapeCasts_S512_S1x512) broadcasts_S1x512_S1000x512) (ix2 r k))
    (Ideal.ofBits .f32 0x00000000#32) = _
  refine congrArg (max · (Ideal.ofBits .f32 0x00000000#32)) ?_
  refine (addf_apply _ _ _).trans ?_
  rw [bias_apply]
  refine congrArg (· + x4 (ix1 k)) ?_
  refine (addf_apply _ _ _).trans ?_
  exact congrArg (· + accOf b0 b1 b2 b3 x1 x2 (ix2 r k)) (mm_layer _ _ r k)

end Cert.KernelIdeal.Body

end
-- ==== Proof.Spec.lean ====
/-
  The function both programs compute, entry by entry, on the extended reals.

  A node `n` carries a graph word; a negative word wraps once by 1024 and the result is cut off at 0 and
  at 1023: that is the row `row b` of the prompt table the node reads. The hidden layer's entry `(n, k)`
  before the rectifier is the node's features times the upper half of the first weight matrix, plus the
  node's prompt row times the lower half, plus the first bias; the result entry `(n, d)` is the rectified
  hidden row times the second weight matrix plus the second bias.
-/
import Idealize.ShloMosaic.PureOps.Ideal
import Idealize.ShloMosaic.Lib.ValueIdx

noncomputable section

namespace Cert.Spec

open Idealize.ShloMosaic Idealize.ShloMosaic.ValueIdx

/-- A negative graph word wraps once by 1024. -/
def wrap (b : BitVec 32) : BitVec 32 := Scalar.select (IntOp.cmpi .slt b 0#32) (IntOp.addi b 1024#32) b

/-- The prompt row a graph word selects: the wrapped word as an integer, cut off at 0 and at 1023. -/
def row (b : BitVec 32) : Fin 1024 := ⟨min (wrap b).toInt.toNat 1023, by omega⟩

/-- The hidden layer's entry `(n, k)` before the rectifier. -/
def pre (nf : (⟨2, ![100000, 512]⟩ : Shape).Idx → EReal) (gp : (⟨2, ![1024, 512]⟩ : Shape).Idx → EReal)
    (bidx : (⟨1, ![100000]⟩ : Shape).Idx → BitVec 32) (W1 : (⟨2, ![1024, 512]⟩ : Shape).Idx → EReal)
    (b1 : (⟨1, ![512]⟩ : Shape).Idx → EReal) (n : Fin 100000) (k : Fin 512) : EReal :=
  ((∑ q : Fin 512, nf (ix2 n q) * W1 (ix2 (⟨q.val, by omega⟩ : Fin 1024) k))
      + ∑ q : Fin 512, gp (ix2 (row (bidx (ix1 n))) q) * W1 (ix2 (⟨512 + q.val, by omega⟩ : Fin 1024) k))
    + b1 (ix1 k)

/-- The result: the rectified hidden row times the second weight matrix, plus the second bias. -/
def G (nf : (⟨2, ![100000, 512]⟩ : Shape).Idx → EReal) (gp : (⟨2, ![1024, 512]⟩ : Shape).Idx → EReal)
    (bidx : (⟨1, ![100000]⟩ : Shape).Idx → BitVec 32) (W1 : (⟨2, ![1024, 512]⟩ : Shape).Idx → EReal)
    (b1 : (⟨1, ![512]⟩ : Shape).Idx → EReal) (W2 : (⟨2, ![512, 512]⟩ : Shape).Idx → EReal)
    (b2 : (⟨1, ![512]⟩ : Shape).Idx → EReal) : (⟨2, ![100000, 512]⟩ : Shape).Idx → EReal := fun j =>
  (∑ k : Fin 512, max (pre nf gp bidx W1 b1 (j 0) k) (Ideal.ofBits .f32 0x00000000#32) * W2 (ix2 k (j 1)))
    + b2 (ix1 (j 1))

/-- `G` at entry `(n, d)`. -/
theorem G_apply (nf : (⟨2, ![100000, 512]⟩ : Shape).Idx → EReal) (gp : (⟨2, ![1024, 512]⟩ : Shape).Idx → EReal)
    (bidx : (⟨1, ![100000]⟩ : Shape).Idx → BitVec 32) (W1 : (⟨2, ![1024, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (n : Fin 100000) (d : Fin 512) :
    G nf gp bidx W1 b1 W2 b2 (ix2 n d)
      = (∑ k : Fin 512, max (pre nf gp bidx W1 b1 n k) (Ideal.ofBits .f32 0x00000000#32) * W2 (ix2 k d)) + b2 (ix1 d) := rfl

end Cert.Spec

end
-- ==== Proof.KHost.lean ====
/-
  What the kernel program's own host operations hand the launch, as functions of the program's
  arguments: the lower half of the first weight matrix folded into the prompt table (the table `PW` of
  1024 rows), the upper half and the second weight matrix (cast to bf16, the identity on the extended
  reals), the graph words wrapped and clamped into [0, 1023] as a column, and per tile of 1000 nodes
  the least and the greatest clamped word (the two tables the kernel's overlap tests read).
-/
import proofs.«415421_j57019985821823_3_alg».proof.Proof.Gen.KernelIdeal.Frame.Runs
import proofs.«415421_j57019985821823_3_alg».proof.Proof.Spec
import proofs.«415421_j57019985821823_3_alg».proof.Proof.Words
import proofs.«415421_j57019985821823_3_alg».proof.Proof.LibMatProd
import Idealize.ShloMosaic.Lib.StableHlo.Run
import Idealize.ShloMosaic.Lib.ValueLayout

set_option maxRecDepth 16384

noncomputable section

namespace Cert.KernelIdeal.HostV

open Idealize.ShloMosaic Idealize.ShloMosaic.TcCoe Idealize.ShloMosaic.ValueIdx Cert.KernelIdeal Cert.KernelIdeal.Gen
open Idealize.SL.Sem Idealize.ShloMosaic.StableHlo

variable {F : FTy → Type} [FloatOps F]

/-- The graph words as the kernel program prepares them: wrapped once when negative, then cut off below
    at 0 and above at 1023. -/
def words (b : IVec S100000 32) : IVec S100000 32 :=
  minsi (broadcastInDim S100000 ![] bcast_S_S100000 (constantI S_ 32 1023#32))
    (maxsi (broadcastInDim S100000 ![] bcast_S_S100000 (constantI S_ 32 0#32))
      (select (cmpi .slt b (broadcastInDim S100000 ![] bcast_S_S100000 (constantI S_ 32 0#32)))
        (addi b (broadcastInDim S100000 ![] bcast_S_S100000 (constantI S_ 32 1024#32))) b))

theorem words_apply (b : IVec S100000 32) (i : S100000.Idx) :
    words b i = IntOp.minsi 1023#32 (IntOp.maxsi 0#32 (Cert.Spec.wrap (b i))) := rfl

/-- A clamped word, read unsigned, is the prompt row the specification selects. -/
theorem toNat_words (b : IVec S100000 32) (i : S100000.Idx) : (words b i).toNat = (Cert.Spec.row (b i)).val := by
  rw [words_apply, Cert.Words.toNat_clamp]; rfl

/-- A clamped word is a small non-negative integer. -/
theorem toInt_words (b : IVec S100000 32) (i : S100000.Idx) :
    (words b i).toInt = ((Cert.Spec.row (b i)).val : ℤ) := by
  have h := Cert.Words.toInt_clamp (Cert.Spec.wrap (b i))
  rw [words_apply, h]
  show _ = ((min (Cert.Spec.wrap (b i)).toInt.toNat 1023 : ℕ) : ℤ)
  omega

variable (m : (ℓ : Loc nD τ sig) → Buf (Elt F) ℓ)

/-- The upper half of the first weight matrix, cast. -/
theorem V_w1n (c : Dev nD) : (V m c main_v4 : S512x512.Idx → F .bf16)
    = truncf .bf16 (extractStridedSlice S512x512 ![0, 0] (m ((c.tc : Thread nD τ).loc main_arg3)) slices_S1024x512_S512x512_0_0) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

/-- The prompt table times the lower half of the first weight matrix, cast. -/
theorem V_pw (c : Dev nD) : (V m c main_v3 : S1024x512.Idx → F .bf16)
    = truncf .bf16 (Host.dotGeneral dot_S1024x512_S512x512_S1024x512_1_0_0_1_n_n none (m ((c.tc : Thread nD τ).loc main_arg1))
        (extractStridedSlice S512x512 ![512, 0] (m ((c.tc : Thread nD τ).loc main_arg3)) slices_S1024x512_S512x512_512_0)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

/-- The second weight matrix, cast. -/
theorem V_w2 (c : Dev nD) : (V m c main_v5 : S512x512.Idx → F .bf16)
    = truncf .bf16 (m ((c.tc : Thread nD τ).loc main_arg5)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
/-- The clamped words as a column (spelt operation by operation, as the program computes them) … -/
theorem V_bidx_ops (c : Dev nD) : (V m c main_v15 : S100000x1.Idx → BitVec 32)
    = shapeCast S100000x1 (minsi (broadcastInDim S100000 ![] bcast_S_S100000 (constantI S_ 32 1023#32))
    (maxsi (broadcastInDim S100000 ![] bcast_S_S100000 (constantI S_ 32 0#32))
      (select (cmpi .slt (m ((c.tc : Thread nD τ).loc main_arg2)) (broadcastInDim S100000 ![] bcast_S_S100000 (constantI S_ 32 0#32)))
        (addi (m ((c.tc : Thread nD τ).loc main_arg2)) (broadcastInDim S100000 ![] bcast_S_S100000 (constantI S_ 32 1024#32))) (m ((c.tc : Thread nD τ).loc main_arg2))))) shapeCasts_S100000_S100000x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl
/-- … and over `words`. -/
theorem V_bidx (c : Dev nD) : (V m c main_v15 : S100000x1.Idx → BitVec 32)
    = shapeCast S100000x1 (words (m ((c.tc : Thread nD τ).loc main_arg2))) shapeCasts_S100000_S100000x1 := V_bidx_ops m c

set_option maxHeartbeats 2000000 in
/-- Per tile of 1000 nodes the least clamped word … -/
theorem V_tmin_ops (c : Dev nD) : (V m c main_v13 : S100.Idx → BitVec 32)
    = Host.reduce IntOp.minsi (shapeCast S100x1000 (minsi (broadcastInDim S100000 ![] bcast_S_S100000 (constantI S_ 32 1023#32))
    (maxsi (broadcastInDim S100000 ![] bcast_S_S100000 (constantI S_ 32 0#32))
      (select (cmpi .slt (m ((c.tc : Thread nD τ).loc main_arg2)) (broadcastInDim S100000 ![] bcast_S_S100000 (constantI S_ 32 0#32)))
        (addi (m ((c.tc : Thread nD τ).loc main_arg2)) (broadcastInDim S100000 ![] bcast_S_S100000 (constantI S_ 32 1024#32))) (m ((c.tc : Thread nD τ).loc main_arg2))))) shapeCasts_S100000_S100x1000)
        (constantI S_ 32 2147483647#32) reducesTo_S100x1000_S100_d1 h_S_ := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl
theorem V_tmin (c : Dev nD) : (V m c main_v13 : S100.Idx → BitVec 32)
    = Host.reduce IntOp.minsi (shapeCast S100x1000 (words (m ((c.tc : Thread nD τ).loc main_arg2))) shapeCasts_S100000_S100x1000)
        (constantI S_ 32 2147483647#32) reducesTo_S100x1000_S100_d1 h_S_ := V_tmin_ops m c

set_option maxHeartbeats 2000000 in
/-- … and the greatest. -/
theorem V_tmax_ops (c : Dev nD) : (V m c main_v14 : S100.Idx → BitVec 32)
    = Host.reduce IntOp.maxsi (shapeCast S100x1000 (minsi (broadcastInDim S100000 ![] bcast_S_S100000 (constantI S_ 32 1023#32))
    (maxsi (broadcastInDim S100000 ![] bcast_S_S100000 (constantI S_ 32 0#32))
      (select (cmpi .slt (m ((c.tc : Thread nD τ).loc main_arg2)) (broadcastInDim S100000 ![] bcast_S_S100000 (constantI S_ 32 0#32)))
        (addi (m ((c.tc : Thread nD τ).loc main_arg2)) (broadcastInDim S100000 ![] bcast_S_S100000 (constantI S_ 32 1024#32))) (m ((c.tc : Thread nD τ).loc main_arg2))))) shapeCasts_S100000_S100x1000)
        (constantI S_ 32 2147483648#32) reducesTo_S100x1000_S100_d1 h_S_ := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl
theorem V_tmax (c : Dev nD) : (V m c main_v14 : S100.Idx → BitVec 32)
    = Host.reduce IntOp.maxsi (shapeCast S100x1000 (words (m ((c.tc : Thread nD τ).loc main_arg2))) shapeCasts_S100000_S100x1000)
        (constantI S_ 32 2147483648#32) reducesTo_S100x1000_S100_d1 h_S_ := V_tmax_ops m c

/-- Entry `(t, r)` of the words laid out as 100 tiles of 1000 is word `1000 t + r`. -/
theorem tiles_apply (w : IVec S100000 32) (t : Fin 100) (r : Fin 1000) :
    shapeCast S100x1000 w shapeCasts_S100000_S100x1000 (ix2 t r) = w (ix1 (⟨1000 * t.val + r.val, by omega⟩ : Fin 100000)) :=
  shapeCast_apply w _ (ix2 t r) (ix1 (⟨1000 * t.val + r.val, by omega⟩ : Fin 100000)) (by
    rw [Shape.rowMajor_val_one, Shape.rowMajor_val_two]
    show 1000 * t.val + r.val = t.val * 1000 + r.val
    omega)

/-- Entry `(n, 0)` of the words as a column is word `n`. -/
theorem column_apply (w : IVec S100000 32) (n : Fin 100000) :
    shapeCast S100000x1 w shapeCasts_S100000_S100000x1 (ix2 n (0 : Fin 1)) = w (ix1 n) :=
  shapeCast_apply w _ (ix2 n (0 : Fin 1)) (ix1 n) (by
    rw [Shape.rowMajor_val_one, Shape.rowMajor_val_two]
    show n.val = n.val * 1 + 0
    omega)

/-- The indices folded into a tile's table entry are the tile's row. -/
theorem drop_tile (t : Fin 100) (r : Fin 1000) :
    (reducesTo_S100x1000_S100_d1 : S100x1000.ReducesTo [1] S100).drop (ix2 t r) = ix1 t := by
  funext b
  obtain rfl : b = 0 := Subsingleton.elim _ _
  exact Fin.ext (Shape.ReducesTo.drop_apply_val reducesTo_S100x1000_S100_d1 (ix2 t r) 0)

/-- A tile's table entries bound every clamped word of the tile: the least from below … -/
theorem tmin_le (w : IVec S100000 32) (t : Fin 100) (r : Fin 1000) :
    (Host.reduce IntOp.minsi (shapeCast S100x1000 w shapeCasts_S100000_S100x1000) (constantI S_ 32 2147483647#32)
        reducesTo_S100x1000_S100_d1 h_S_ (ix1 t)).toInt
      ≤ (w (ix1 (⟨1000 * t.val + r.val, by omega⟩ : Fin 100000))).toInt := by
  classical
  rw [Host.reduce_eq_fold, ← tiles_apply w t r]
  exact (Cert.Words.fold_minsi_le _ _ _).2 (ix2 t r) (Finset.mem_filter.2 ⟨Finset.mem_univ _, drop_tile t r⟩)

/-- … the greatest from above. -/
theorem le_tmax (w : IVec S100000 32) (t : Fin 100) (r : Fin 1000) :
    (w (ix1 (⟨1000 * t.val + r.val, by omega⟩ : Fin 100000))).toInt
      ≤ (Host.reduce IntOp.maxsi (shapeCast S100x1000 w shapeCasts_S100000_S100x1000) (constantI S_ 32 2147483648#32)
        reducesTo_S100x1000_S100_d1 h_S_ (ix1 t)).toInt := by
  classical
  rw [Host.reduce_eq_fold, ← tiles_apply w t r]
  exact (Cert.Words.le_fold_maxsi _ _ _).2 (ix2 t r) (Finset.mem_filter.2 ⟨Finset.mem_univ _, drop_tile t r⟩)

end Cert.KernelIdeal.HostV

end
-- ==== Proof.KBlocks.lean ====
/-
  Where a grid point's blocks sit in their arrays. Point `t` of the 100 stages rows 1000 t … 1000 t + 999
  of the node features, of the column of clamped words and of the result; the folded prompt table, the two
  weight matrices and the two biases are staged whole at every point; and the body reads entry `t` of each
  of the two tables.
-/
import proofs.«415421_j57019985821823_3_alg».proof.Proof.Gen.KernelIdeal.Frame.Runs
import Idealize.ShloMosaic.Lib.ValueIdx

set_option maxRecDepth 16384

noncomputable section

namespace Cert.KernelIdeal.Blocks

open Idealize.ShloMosaic Idealize.ShloMosaic.TcCoe Idealize.ShloMosaic.ValueIdx Cert.KernelIdeal Cert.KernelIdeal.Gen

variable {F : FTy → Type} [FloatOps F]

/-- The printed index maps, decided over the grid: windows 0, 1 and 7 are at block `(t, 0)`, the others at
    block 0, and the body's table offset is `t`. -/
theorem idx_facts : ∀ t : Fin grid0.N,
    cc0_transform_0 (grid0.coords t) 0 = t.val ∧ cc0_transform_0 (grid0.coords t) 1 = 0
    ∧ cc0_transform_1 (grid0.coords t) 0 = t.val ∧ cc0_transform_1 (grid0.coords t) 1 = 0
    ∧ cc0_transform_2 (grid0.coords t) 0 = 0 ∧ cc0_transform_2 (grid0.coords t) 1 = 0
    ∧ cc0_transform_3 (grid0.coords t) 0 = 0 ∧ cc0_transform_3 (grid0.coords t) 1 = 0
    ∧ cc0_transform_4 (grid0.coords t) 0 = 0
    ∧ cc0_transform_5 (grid0.coords t) 0 = 0 ∧ cc0_transform_5 (grid0.coords t) 1 = 0
    ∧ cc0_transform_6 (grid0.coords t) 0 = 0
    ∧ cc0_transform_7 (grid0.coords t) 0 = t.val ∧ cc0_transform_7 (grid0.coords t) 1 = 0
    ∧ k0_off1 (grid0.coords t) 0 = t.val := by decide +kernel

variable (a : (pcfg0 (F := F)).Adm)

/-- Window 0's block at point `t`: rows 1000 t … of its array. -/
theorem read0 (X : S100000x512.Idx → Elt F .f32) (t : Fin (cfg0 a).N) (r : Fin 1000) (q : Fin 512) :
    (((cfg0 a).win 0).blk t).view.read (Elt F) X (ix2 r q)
      = X (ix2 (⟨1000 * t.val + r.val, by have := t.isLt; have : t.val < 100 := this; omega⟩ : Fin 100000) q) := by
  show X ((((cfg0 a).win 0).blk t).view.emb (ix2 r q)) = _
  refine congrArg X (funext fun ax => Fin.ext ?_)
  obtain ⟨e00, e01, -⟩ := idx_facts t
  match ax with
  | ⟨0, _⟩ =>
    show ((cfg0 a).win 0).index t (0 : Fin 2) * 1000 + 1 * r.val = 1000 * t.val + r.val
    have h : ((cfg0 a).win 0).index t (0 : Fin 2) = t.val := e00
    omega
  | ⟨1, _⟩ =>
    show ((cfg0 a).win 0).index t (1 : Fin 2) * 512 + 1 * q.val = q.val
    have h : ((cfg0 a).win 0).index t (1 : Fin 2) = 0 := e01
    omega

/-- The body's read of table 0 at point `t` is the table's entry `t`. -/
theorem tmin_read (c : Dev nD) (f : TbBuf0 (F := F) c tbM0_0) (t : Fin grid0.N) :
    tbM0_0.view.readAt (Elt F) (Rect.unit (s := S100) (k0_off1 (grid0.coords t)) S1.size (k0_off1_inb (grid0.coords t))).toLoadRect f
        (Shape.Idx.first (numel1_S1.symm ▸ Nat.one_pos))
      = (f : S100.Idx → BitVec 32) (ix1 (⟨t.val, t.isLt⟩ : Fin 100)) := by
  show (f : S100.Idx → BitVec 32) _ = _
  refine congrArg (f : S100.Idx → BitVec 32) (funext fun ax => Fin.ext ?_)
  have e := (idx_facts t).2.2.2.2.2.2.2.2.2.2.2.2.2.2
  match ax with
  | ⟨0, _⟩ =>
    show k0_off1 (grid0.coords t) 0 + 1 * 0 = t.val
    omega

/-- Window 1's block at point `t`: rows 1000 t … of the column of words. -/
theorem read1 (X : S100000x1.Idx → Elt F .i32) (t : Fin (cfg0 a).N) (r : Fin 1000) :
    (((cfg0 a).win 1).blk t).view.read (Elt F) X (ix2 r (0 : Fin 1))
      = X (ix2 (⟨1000 * t.val + r.val, by have := t.isLt; have : t.val < 100 := this; omega⟩ : Fin 100000) (0 : Fin 1)) := by
  show X ((((cfg0 a).win 1).blk t).view.emb (ix2 r (0 : Fin 1))) = _
  refine congrArg X (funext fun ax => Fin.ext ?_)
  obtain ⟨-, -, e10, e11, -⟩ := idx_facts t
  match ax with
  | ⟨0, _⟩ =>
    show ((cfg0 a).win 1).index t (0 : Fin 2) * 1000 + 1 * r.val = 1000 * t.val + r.val
    have h : ((cfg0 a).win 1).index t (0 : Fin 2) = t.val := e10
    omega
  | ⟨1, _⟩ =>
    show ((cfg0 a).win 1).index t (1 : Fin 2) * 1 + 1 * 0 = 0
    have h : ((cfg0 a).win 1).index t (1 : Fin 2) = 0 := e11
    omega

/-- Window 7's block at point `t`: rows 1000 t … of the result. -/
theorem read7 (X : S100000x512.Idx → Elt F .f32) (t : Fin (cfg0 a).N) (r : Fin 1000) (q : Fin 512) :
    (((cfg0 a).win 7).blk t).view.read (Elt F) X (ix2 r q)
      = X (ix2 (⟨1000 * t.val + r.val, by have := t.isLt; have : t.val < 100 := this; omega⟩ : Fin 100000) q) := by
  show X ((((cfg0 a).win 7).blk t).view.emb (ix2 r q)) = _
  refine congrArg X (funext fun ax => Fin.ext ?_)
  have e70 := (idx_facts t).2.2.2.2.2.2.2.2.2.2.2.2.1
  have e71 := (idx_facts t).2.2.2.2.2.2.2.2.2.2.2.2.2.1
  match ax with
  | ⟨0, _⟩ =>
    show ((cfg0 a).win 7).index t (0 : Fin 2) * 1000 + 1 * r.val = 1000 * t.val + r.val
    have h : ((cfg0 a).win 7).index t (0 : Fin 2) = t.val := e70
    omega
  | ⟨1, _⟩ =>
    show ((cfg0 a).win 7).index t (1 : Fin 2) * 512 + 1 * q.val = q.val
    have h : ((cfg0 a).win 7).index t (1 : Fin 2) = 0 := e71
    omega

/-- Windows 2, 3 and 5 are their whole arrays at every point. -/
theorem read2 (X : S1024x512.Idx → Elt F .bf16) (t : Fin (cfg0 a).N) (g : Fin 1024) (k : Fin 512) :
    (((cfg0 a).win 2).blk t).view.read (Elt F) X (ix2 g k) = X (ix2 g k) := by
  show X ((((cfg0 a).win 2).blk t).view.emb (ix2 g k)) = _
  refine congrArg X (funext fun ax => Fin.ext ?_)
  have e0 := (idx_facts t).2.2.2.2.1
  have e1 := (idx_facts t).2.2.2.2.2.1
  match ax with
  | ⟨0, _⟩ =>
    show ((cfg0 a).win 2).index t (0 : Fin 2) * 1024 + 1 * g.val = g.val
    have h : ((cfg0 a).win 2).index t (0 : Fin 2) = 0 := e0
    omega
  | ⟨1, _⟩ =>
    show ((cfg0 a).win 2).index t (1 : Fin 2) * 512 + 1 * k.val = k.val
    have h : ((cfg0 a).win 2).index t (1 : Fin 2) = 0 := e1
    omega
theorem read3 (X : S512x512.Idx → Elt F .bf16) (t : Fin (cfg0 a).N) (g : Fin 512) (k : Fin 512) :
    (((cfg0 a).win 3).blk t).view.read (Elt F) X (ix2 g k) = X (ix2 g k) := by
  show X ((((cfg0 a).win 3).blk t).view.emb (ix2 g k)) = _
  refine congrArg X (funext fun ax => Fin.ext ?_)
  have e0 := (idx_facts t).2.2.2.2.2.2.1
  have e1 := (idx_facts t).2.2.2.2.2.2.2.1
  match ax with
  | ⟨0, _⟩ =>
    show ((cfg0 a).win 3).index t (0 : Fin 2) * 512 + 1 * g.val = g.val
    have h : ((cfg0 a).win 3).index t (0 : Fin 2) = 0 := e0
    omega
  | ⟨1, _⟩ =>
    show ((cfg0 a).win 3).index t (1 : Fin 2) * 512 + 1 * k.val = k.val
    have h : ((cfg0 a).win 3).index t (1 : Fin 2) = 0 := e1
    omega
theorem read5 (X : S512x512.Idx → Elt F .bf16) (t : Fin (cfg0 a).N) (g : Fin 512) (k : Fin 512) :
    (((cfg0 a).win 5).blk t).view.read (Elt F) X (ix2 g k) = X (ix2 g k) := by
  show X ((((cfg0 a).win 5).blk t).view.emb (ix2 g k)) = _
  refine congrArg X (funext fun ax => Fin.ext ?_)
  have e0 := (idx_facts t).2.2.2.2.2.2.2.2.2.1
  have e1 := (idx_facts t).2.2.2.2.2.2.2.2.2.2.1
  match ax with
  | ⟨0, _⟩ =>
    show ((cfg0 a).win 5).index t (0 : Fin 2) * 512 + 1 * g.val = g.val
    have h : ((cfg0 a).win 5).index t (0 : Fin 2) = 0 := e0
    omega
  | ⟨1, _⟩ =>
    show ((cfg0 a).win 5).index t (1 : Fin 2) * 512 + 1 * k.val = k.val
    have h : ((cfg0 a).win 5).index t (1 : Fin 2) = 0 := e1
    omega

/-- Windows 4 and 6 (the biases) likewise. -/
theorem read4 (X : S512.Idx → Elt F .f32) (t : Fin (cfg0 a).N) (k : Fin 512) :
    (((cfg0 a).win 4).blk t).view.read (Elt F) X (ix1 k) = X (ix1 k) := by
  show X ((((cfg0 a).win 4).blk t).view.emb (ix1 k)) = _
  refine congrArg X (funext fun ax => Fin.ext ?_)
  have e0 := (idx_facts t).2.2.2.2.2.2.2.2.1
  match ax with
  | ⟨0, _⟩ =>
    show ((cfg0 a).win 4).index t (0 : Fin 1) * 512 + 1 * k.val = k.val
    have h : ((cfg0 a).win 4).index t (0 : Fin 1) = 0 := e0
    omega
theorem read6 (X : S512.Idx → Elt F .f32) (t : Fin (cfg0 a).N) (k : Fin 512) :
    (((cfg0 a).win 6).blk t).view.read (Elt F) X (ix1 k) = X (ix1 k) := by
  show X ((((cfg0 a).win 6).blk t).view.emb (ix1 k)) = _
  refine congrArg X (funext fun ax => Fin.ext ?_)
  have e0 := (idx_facts t).2.2.2.2.2.2.2.2.2.2.2.1
  match ax with
  | ⟨0, _⟩ =>
    show ((cfg0 a).win 6).index t (0 : Fin 1) * 512 + 1 * k.val = k.val
    have h : ((cfg0 a).win 6).index t (0 : Fin 1) = 0 := e0
    omega

/-- The body's read of table 1 at point `t` is the table's entry `t`. -/
theorem tmax_read (c : Dev nD) (f : TbBuf0 (F := F) c tbM0_1) (t : Fin grid0.N) :
    tbM0_1.view.readAt (Elt F) (Rect.unit (s := S100) (k0_off1 (grid0.coords t)) S1.size (k0_off1_inb (grid0.coords t))).toLoadRect f
        (Shape.Idx.first (numel1_S1.symm ▸ Nat.one_pos))
      = (f : S100.Idx → BitVec 32) (ix1 (⟨t.val, t.isLt⟩ : Fin 100)) := by
  show (f : S100.Idx → BitVec 32) _ = _
  refine congrArg (f : S100.Idx → BitVec 32) (funext fun ax => Fin.ext ?_)
  have e := (idx_facts t).2.2.2.2.2.2.2.2.2.2.2.2.2.2
  match ax with
  | ⟨0, _⟩ =>
    show k0_off1 (grid0.coords t) 0 + 1 * 0 = t.val
    omega

end Cert.KernelIdeal.Blocks

end
-- ==== Proof.KValue.lean ====
/-
  The kernel program's result is the specification's function of its arguments.

  At grid point `t` the body sees rows 1000 t … 1000 t + 999 of the node features and of the clamped graph
  words, the whole folded prompt table, both weight matrices and both biases. A row's clamped word lies
  between the tile's least and greatest word, which are the two table entries the body reads; so the chunk
  of the table that holds the word passes its overlap test, and the accumulator is the word's row of the
  folded table: the prompt row times the lower half of the first weight matrix. The stored block is then the
  specification on the point's rows; the hundred blocks tile the result.
-/
import proofs.«415421_j57019985821823_3_alg».proof.Proof.KCases
import proofs.«415421_j57019985821823_3_alg».proof.Proof.KPay
import proofs.«415421_j57019985821823_3_alg».proof.Proof.KHost
import proofs.«415421_j57019985821823_3_alg».proof.Proof.KBlocks

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Body Cert.KernelIdeal.HostV Cert.KernelIdeal.Blocks

variable (m : (ℓ : Loc nD τ sig) → Buf (Elt Ideal) ℓ) (ρ : Dev nD → PrngReg)

/-- The program's arguments as core `c` holds them at launch. -/
abbrev A0 (c : Dev nD) : FVec Ideal S100000x512 .f32 := m ((c.tc : Thread nD τ).loc main_arg0)
abbrev A1 (c : Dev nD) : FVec Ideal S1024x512 .f32 := m ((c.tc : Thread nD τ).loc main_arg1)
abbrev A2 (c : Dev nD) : IVec S100000 32 := m ((c.tc : Thread nD τ).loc main_arg2)
abbrev A3 (c : Dev nD) : FVec Ideal S1024x512 .f32 := m ((c.tc : Thread nD τ).loc main_arg3)
abbrev A4 (c : Dev nD) : FVec Ideal S512 .f32 := m ((c.tc : Thread nD τ).loc main_arg4)
abbrev A5 (c : Dev nD) : FVec Ideal S512x512 .f32 := m ((c.tc : Thread nD τ).loc main_arg5)
abbrev A6 (c : Dev nD) : FVec Ideal S512 .f32 := m ((c.tc : Thread nD τ).loc main_arg6)

/-- The specification at those arguments. -/
def Gm (c : Dev nD) : S100000x512.Idx → EReal :=
  Cert.Spec.G (A0 m c) (A1 m c) (A2 m c) (A3 m c) (A4 m c) (A5 m c) (A6 m c)

/-- Row `r` of point `t`'s blocks is row `1000 t + r` of the arrays. -/
theorem row_lt {N : ℕ} (t : Fin N) (r : Fin 1000) (h : N = 100 := by rfl) : 1000 * t.val + r.val < 100000 := by
  have := t.isLt; have := r.isLt; omega

variable (hO : Ok m) (c : Dev nD) (t : Fin (cfgM m hO).N)

/-- The seven input blocks of point `t`, at their literal types. -/
abbrev B0 : FVec Ideal S1000x512 .f32 := iblk m hO c 0 t
abbrev B1 : IVec S1000x1 32 := iblk m hO c 1 t
abbrev B2 : FVec Ideal S1024x512 .bf16 := iblk m hO c 2 t
abbrev B3 : FVec Ideal S512x512 .bf16 := iblk m hO c 3 t
abbrev B4 : FVec Ideal S512 .f32 := iblk m hO c 4 t
abbrev B5 : FVec Ideal S512x512 .bf16 := iblk m hO c 5 t
abbrev B6 : FVec Ideal S512 .f32 := iblk m hO c 6 t

/-! ## The point's blocks at the launch contents -/

theorem blk0 (r : Fin 1000) (q : Fin 512) :
    B0 m hO c t (ix2 r q) = A0 m c (ix2 (⟨1000 * t.val + r.val, row_lt t r⟩ : Fin 100000) q) :=
  (read0 (adm m hO) (V m c main_arg0) t r q).trans (congrFun (V_main_arg0 m c) _)

theorem blk1 (r : Fin 1000) :
    B1 m hO c t (ix2 r (0 : Fin 1)) = words (A2 m c) (ix1 (⟨1000 * t.val + r.val, row_lt t r⟩ : Fin 100000)) :=
  ((read1 (adm m hO) (V m c main_v15) t r).trans (congrFun (V_bidx m c) _)).trans (column_apply _ _)

theorem blk2 (g : Fin 1024) (k : Fin 512) :
    B2 m hO c t (ix2 g k)
      = ∑ q : Fin 512, A1 m c (ix2 g q) * A3 m c (ix2 (⟨512 + q.val, by omega⟩ : Fin 1024) k) := by
  refine ((read2 (adm m hO) (V m c main_v3) t g k).trans (congrFun (V_pw m c) _)).trans ?_
  show Host.dotGeneral dot_S1024x512_S512x512_S1024x512_1_0_0_1_n_n none (A1 m c)
    (extractStridedSlice S512x512 ![512, 0] (A3 m c) slices_S1024x512_S512x512_512_0) (ix2 g k) = _
  refine (Cert.LibMatProd.dotGeneral_apply dot_S1024x512_S512x512_S1024x512_1_0_0_1_n_n rfl none (A1 m c)
    (extractStridedSlice S512x512 ![512, 0] (A3 m c) slices_S1024x512_S512x512_512_0) g k).trans ?_
  refine Finset.sum_congr rfl fun q _ => congrArg (A1 m c (ix2 g q) * ·) ?_
  exact slice2_axis0_apply 512 (A3 m c) slices_S1024x512_S512x512_512_0 q k (⟨512 + q.val, by omega⟩ : Fin 1024) rfl

theorem blk3 (q : Fin 512) (k : Fin 512) :
    B3 m hO c t (ix2 q k) = A3 m c (ix2 (⟨q.val, by omega⟩ : Fin 1024) k) := by
  refine ((read3 (adm m hO) (V m c main_v4) t q k).trans (congrFun (V_w1n m c) _)).trans ?_
  show extractStridedSlice S512x512 ![0, 0] (A3 m c) slices_S1024x512_S512x512_0_0 (ix2 q k) = _
  exact slice2_axis0_apply 0 (A3 m c) slices_S1024x512_S512x512_0_0 q k (⟨q.val, by omega⟩ : Fin 1024)
    (by show q.val = 0 + q.val; omega)

theorem blk4 (k : Fin 512) :
    B4 m hO c t (ix1 k) = A4 m c (ix1 k) :=
  (read4 (adm m hO) (V m c main_arg4) t k).trans (congrFun (V_main_arg4 m c) _)

theorem blk5 (k : Fin 512) (d : Fin 512) :
    B5 m hO c t (ix2 k d) = A5 m c (ix2 k d) :=
  (read5 (adm m hO) (V m c main_v5) t k d).trans (congrFun (V_w2 m c) _)

theorem blk6 (d : Fin 512) :
    B6 m hO c t (ix1 d) = A6 m c (ix1 d) :=
  (read6 (adm m hO) (V m c main_arg6) t d).trans (congrFun (V_main_arg6 m c) _)

/-! ## The tile's least and greatest word bound the row's word -/

theorem wmin_le (r : Fin 1000) :
    (wmin m (grid0.coords t)).toInt ≤ (words (A2 m c) (ix1 (⟨1000 * t.val + r.val, row_lt t r⟩ : Fin 100000))).toInt := by
  obtain rfl : c = 0 := Subsingleton.elim _ _
  unfold wmin
  rw [tmin_read (0 : Dev nD) (tbl m 0) t, show (tbl m 0 : S100.Idx → BitVec 32) = _ from (V_pre m 0 0).symm.trans (V_tmin m 0)]
  exact tmin_le _ (⟨t.val, t.isLt⟩ : Fin 100) r

theorem le_wmax (r : Fin 1000) :
    (words (A2 m c) (ix1 (⟨1000 * t.val + r.val, row_lt t r⟩ : Fin 100000))).toInt ≤ (wmax m (grid0.coords t)).toInt := by
  obtain rfl : c = 0 := Subsingleton.elim _ _
  unfold wmax
  rw [tmax_read (0 : Dev nD) (tbl m 1) t, show (tbl m 1 : S100.Idx → BitVec 32) = _ from (V_pre m 0 1).symm.trans (V_tmax m 0)]
  exact le_tmax _ (⟨t.val, t.isLt⟩ : Fin 100) r

/-- A chunk `[lo, hi]` that holds the row's word passes the body's overlap test at the point. -/
theorem overlap_of_mem (r : Fin 1000) (lo hi : BitVec 32)
    (hlo : lo.toInt ≤ (words (A2 m c) (ix1 (⟨1000 * t.val + r.val, row_lt t r⟩ : Fin 100000))).toInt)
    (hhi : (words (A2 m c) (ix1 (⟨1000 * t.val + r.val, row_lt t r⟩ : Fin 100000))).toInt ≤ hi.toInt) :
    (Scalar.cmpi .ne (Scalar.extui (Scalar.andi (Scalar.cmpi .sge (wmax m (grid0.coords t)) lo)
      (Scalar.cmpi .sle (wmin m (grid0.coords t)) hi))) 0#32) = 1#1 :=
  (Cert.Words.overlap_iff _ _ _ _).2 ⟨le_trans hlo (le_wmax m hO c t r), le_trans (wmin_le m hO c t r) hhi⟩

/-! ## The accumulator and the stored block at a point -/

/-- The accumulator at entry `(r, k)` when row `r`'s word is `w`. -/
theorem accOf_apply' (b0 b1 b2 b3 : Bool) (x1 : Vec Ideal S1000x1 .i32) (x2 : Vec Ideal S1024x512 .bf16)
    (r : Fin 1000) (k : Fin 512) (w : BitVec 32) (hx : x1 (ix2 r (0 : Fin 1)) = w) (hw : w.toNat < 1024)
    (h0 : w.toNat < 256 → b0 = true) (h1 : 256 ≤ w.toNat → w.toNat < 512 → b1 = true)
    (h2 : 512 ≤ w.toNat → w.toNat < 768 → b2 = true) (h3 : 768 ≤ w.toNat → b3 = true) :
    accOf b0 b1 b2 b3 x1 x2 (ix2 r k) = x2 (ix2 (⟨w.toNat, hw⟩ : Fin 1024) k) := by
  subst hx
  exact accOf_apply b0 b1 b2 b3 x1 x2 r k hw h0 h1 h2 h3

/-- THE ACCUMULATOR at a point: the row's prompt row times the lower half of the first weight matrix. -/
theorem acc_point (r : Fin 1000) (k : Fin 512) :
    accOf (F := Ideal) (ran0 m (grid0.coords t)) (ran1 m (grid0.coords t)) (ran2 m (grid0.coords t)) (ran3 m (grid0.coords t))
        (B1 m hO c t) (B2 m hO c t) (ix2 r k)
      = ∑ q : Fin 512, A1 m c (ix2 (Cert.Spec.row ((A2 m c) (ix1 (⟨1000 * t.val + r.val, row_lt t r⟩ : Fin 100000)))) q)
          * A3 m c (ix2 (⟨512 + q.val, by omega⟩ : Fin 1024) k) := by
  have hN := toNat_words (A2 m c) (ix1 (⟨1000 * t.val + r.val, row_lt t r⟩ : Fin 100000))
  have hI := toInt_words (A2 m c) (ix1 (⟨1000 * t.val + r.val, row_lt t r⟩ : Fin 100000))
  have hlt : (words (A2 m c) (ix1 (⟨1000 * t.val + r.val, row_lt t r⟩ : Fin 100000))).toNat < 1024 := by rw [hN]; exact (Cert.Spec.row _).isLt
  have key : ∀ (lo hi : ℕ), lo < 2 ^ 31 → hi < 2 ^ 31 → lo ≤ (words (A2 m c) (ix1 (⟨1000 * t.val + r.val, row_lt t r⟩ : Fin 100000))).toNat →
      (words (A2 m c) (ix1 (⟨1000 * t.val + r.val, row_lt t r⟩ : Fin 100000))).toNat ≤ hi →
      (Scalar.cmpi .ne (Scalar.extui (Scalar.andi (Scalar.cmpi .sge (wmax m (grid0.coords t)) (BitVec.ofNat 32 lo))
        (Scalar.cmpi .sle (wmin m (grid0.coords t)) (BitVec.ofNat 32 hi)))) 0#32) = 1#1 := by
    intro lo hi hl hh h1 h2
    refine overlap_of_mem m hO c t r _ _ ?_ ?_
    · have e : (BitVec.ofNat 32 lo).toInt = (lo : ℤ) := by
        rw [BitVec.toInt_eq_toNat_cond, BitVec.toNat_ofNat]; have : lo % 2 ^ 32 = lo := Nat.mod_eq_of_lt (by omega); rw [this]; split <;> omega
      rw [e, hI, ← hN]; exact_mod_cast h1
    · have e : (BitVec.ofNat 32 hi).toInt = (hi : ℤ) := by
        rw [BitVec.toInt_eq_toNat_cond, BitVec.toNat_ofNat]; have : hi % 2 ^ 32 = hi := Nat.mod_eq_of_lt (by omega); rw [this]; split <;> omega
      rw [e, hI, ← hN]; exact_mod_cast h2
  refine (accOf_apply' (ran0 m (grid0.coords t)) (ran1 m (grid0.coords t)) (ran2 m (grid0.coords t)) (ran3 m (grid0.coords t))
    (B1 m hO c t) (B2 m hO c t) r k _ (blk1 m hO c t r) hlt
    (fun h => decide_eq_true (key 0 255 (by norm_num) (by norm_num) (Nat.zero_le _) (by omega)))
    (fun h h' => decide_eq_true (key 256 511 (by norm_num) (by norm_num) h (by omega)))
    (fun h h' => decide_eq_true (key 512 767 (by norm_num) (by norm_num) h (by omega)))
    (fun h => decide_eq_true (key 768 1023 (by norm_num) (by norm_num) h (by omega)))).trans ?_
  refine (blk2 m hO c t _ k).trans ?_
  have e : (⟨(words (A2 m c) (ix1 (⟨1000 * t.val + r.val, row_lt t r⟩ : Fin 100000))).toNat, hlt⟩ : Fin 1024) = Cert.Spec.row ((A2 m c) (ix1 (⟨1000 * t.val + r.val, row_lt t r⟩ : Fin 100000))) := Fin.ext hN
  rw [e]

/-- THE STORED BLOCK at point `t`, entry `(r, d)`, is the specification at `(1000 t + r, d)`. -/
theorem point_eq (r : Fin 1000) (d : Fin 512) :
    outsAt0 m hO c t (ix2 r d) = Gm m c (ix2 (⟨1000 * t.val + r.val, row_lt t r⟩ : Fin 100000) d) := by
  refine (congrFun (outsAt0_eq m hO c t) (ix2 r d)).trans ?_
  refine (outOf_apply (ran0 m (grid0.coords t)) (ran1 m (grid0.coords t)) (ran2 m (grid0.coords t)) (ran3 m (grid0.coords t))
    (B0 m hO c t) (B1 m hO c t) (B2 m hO c t) (B3 m hO c t) (B4 m hO c t) (B5 m hO c t) (B6 m hO c t) r d).trans ?_
  unfold Gm
  refine Eq.trans ?_ (Cert.Spec.G_apply _ _ _ _ _ _ _ (⟨1000 * t.val + r.val, row_lt t r⟩ : Fin 100000) d).symm
  refine congrArg₂ (· + ·) (Finset.sum_congr rfl fun k _ => ?_) (blk6 m hO c t d)
  refine congrArg₂ (· * ·) (congrArg (max · (Ideal.ofBits .f32 0x00000000#32)) ?_) (blk5 m hO c t k d)
  unfold Cert.Spec.pre
  refine congrArg₂ (· + ·) (congrArg₂ (· + ·) (Finset.sum_congr rfl fun q _ =>
    congrArg₂ (· * ·) (blk0 m hO c t r q) (blk3 m hO c t q k)) (acc_point m hO c t r k)) (blk4 m hO c t k)

/-! ## From the blocks to the array -/

/-- WHAT POINT `t` WRITES BACK is block `t` of the specification. -/
theorem flushed_eq : (dats m hO 0 c).flushed 7 t = (((cfgM m hO).win 7).blk t).view.read (Elt Ideal) (Gm m c) := by
  show ((cfgM m hO).win 7).cut (grid0.coords t) ((dats m hO 0 c).after 7 t) = _
  rw [after0_7]
  refine funext fun (y : S1000x512.Idx) => ?_
  obtain ⟨r, d, rfl⟩ : ∃ (r : Fin 1000) (d : Fin 512), y = ix2 r d := ⟨y 0, y 1, eq_ix2 (n0 := 1000) (n1 := 512) y⟩
  show outsAt0 m hO c t (ix2 r d) = _
  rw [point_eq m hO c t r d]
  exact (read7 (adm m hO) (Gm m c) t r d).symm

/-- Every index of the result is the image of a block index of the point its row number names. -/
theorem cover7 (a : (pcfg0 (F := Ideal)).Adm) (i : S100000x512.Idx) :
    ∃ t : Fin (cfg0 a).N, ((cfg0 a).win 7).flush t = true ∧ i ∈ (((cfg0 a).win 7).blk t).view.set := by
  have hi0 : (i 0).val < 100000 := (i 0).isLt
  have hi1 : (i 1).val < 512 := (i 1).isLt
  have ht : (i 0).val / 1000 < (cfg0 a).N := lt_of_lt_of_eq (by omega : (i 0).val / 1000 < 100) N_0.symm
  refine ⟨⟨(i 0).val / 1000, ht⟩, flush0_7 a _, ?_⟩
  have e70 := (idx_facts ⟨(i 0).val / 1000, ht⟩).2.2.2.2.2.2.2.2.2.2.2.2.1
  have e71 := (idx_facts ⟨(i 0).val / 1000, ht⟩).2.2.2.2.2.2.2.2.2.2.2.2.2.1
  have e : (((cfg0 a).win 7).blk ⟨(i 0).val / 1000, ht⟩).view.emb
      (ix2 (⟨(i 0).val % 1000, Nat.mod_lt _ (by norm_num)⟩ : Fin 1000) (⟨(i 1).val, hi1⟩ : Fin 512)) = i := by
    funext ax; apply Fin.ext
    match ax with
    | ⟨0, _⟩ =>
      show ((cfg0 a).win 7).index ⟨(i 0).val / 1000, ht⟩ (0 : Fin 2) * 1000 + 1 * ((i 0).val % 1000) = (i 0).val
      have h : ((cfg0 a).win 7).index ⟨(i 0).val / 1000, ht⟩ (0 : Fin 2) = (i 0).val / 1000 := e70
      omega
    | ⟨1, _⟩ =>
      show ((cfg0 a).win 7).index ⟨(i 0).val / 1000, ht⟩ (1 : Fin 2) * 512 + 1 * (i 1).val = (i 1).val
      have h : ((cfg0 a).win 7).index ⟨(i 0).val / 1000, ht⟩ (1 : Fin 2) = 0 := e71
      omega
  exact (congrArg (fun z => z ∈ (((cfg0 a).win 7).blk ⟨(i 0).val / 1000, ht⟩).view.set) e).mp (View.emb_mem_set _ _)

/-- THE RESULT ARRAY after the run is the specification. -/
theorem final : (dats m hO 0 c).arrAt 7 (cfgM m hO).N = Gm m c :=
  (dats m hO 0 c).arrAt_eq_of_cover 7 (Gm m c) (fun t _ => flushed_eq m hO c t) (cover7 (adm m hO))

/-! ## The run, read -/

/-- The frame run re-posted: the result array at the specification, the arguments unchanged. -/
theorem run (hO : Ok m) : θ_run defs (onTc (τ := τ) (main (F := Ideal))) ⟨m, fun _ => 0, ρ⟩ (fun r => ∀ c : Dev nD,
      r.2.mem ((c.tc : Thread nD τ).loc main_v16) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats m hO 0 c).arrAt_in 4 rfl _).trans ((A_eq m hO c 4).trans (V_main_arg4 m c))),
      ((h c).2 main_arg5 (by decide : main_arg5 ∈ Pipeline.restRefs sig spec0)).trans (V_main_arg5 m c),
      ((h c).1 6).trans (((dats m hO 0 c).arrAt_in 6 rfl _).trans ((A_eq m hO c 6).trans (V_main_arg6 m c)))⟩)
    (run_main m ρ hO)

end Cert.KernelIdeal.Value

end
-- ==== Proof.RefValue.lean ====
/-
  The reference's result is the specification's function of the arguments.

  Its gather reads, for node `n`, the prompt row named by the node's wrapped graph word read as a signed
  integer and cut off at 0 and 1023; its concatenation puts the node's 512 features before that row's
  512 entries, so the product with the first weight matrix over 1024 columns is the sum of the node's
  product with the upper half and the prompt row's product with the lower half.
-/
import proofs.«415421_j57019985821823_3_alg».proof.Proof.Gen.ReferenceIdeal.Read
import proofs.«415421_j57019985821823_3_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The wrapped graph word of node `n`, as the reference computes it. -/
theorem wrapped_apply (x2 : S100000.Idx → BitVec 32) (n : Fin 100000) :
    val_main_v4 (F := Ideal) x2 (ix1 n) = Cert.Spec.wrap (x2 (ix1 n)) := by
  rw [val_main_v4_apply, val_main_v1_apply, val_main_v3_apply, val_main_v0_apply, val_main_v2_apply]
  rfl

/-- The start index the gather reads for result entry `(n, q)` is entry `(n, 0)` of the column of wrapped words. -/
theorem start_index (n : Fin 100000) (q : Fin 512) :
    gather_S1024x512_S100000x1_S100000x512_1_0_n_n_0_1_1512.siIdx (ix2 n q : S100000x512.Idx)
        ⟨List.idxOf (0 : Fin S1024x512.rank) gather_S1024x512_S100000x1_S100000x512_1_0_n_n_0_1_1512.startIndexMap, List.idxOf_lt_length_iff.2 (List.mem_singleton.mpr rfl)⟩
      = (ix2 n (0 : Fin 1) : S100000x1.Idx) := by
  funext b; refine Fin.ext ?_
  match b with
  | ⟨0, _⟩ => rfl
  | ⟨1, _⟩ => rfl

/-- THE GATHER at entry `(n, q)`: the prompt table's row `row (word n)`, column `q`. -/
theorem gathered_apply (x1 : S1024x512.Idx → EReal) (x2 : S100000.Idx → BitVec 32) (n : Fin 100000) (q : Fin 512) :
    val_main_v6 (F := Ideal) x1 x2 (ix2 n q) = x1 (ix2 (Cert.Spec.row (x2 (ix1 n))) q) := by
  unfold val_main_v6 Host.gather
  refine congrArg x1 (funext fun a => Fin.ext ?_)
  match a with
  | ⟨0, _⟩ =>
    show gather_S1024x512_S100000x1_S100000x512_1_0_n_n_0_1_1512.start (ix2 n q : S100000x512.Idx) (val_main_v5 (F := Ideal) x2) 0
        + gather_S1024x512_S100000x1_S100000x512_1_0_n_n_0_1_1512.batchCoord (ix2 n q : S100000x512.Idx) 0 + gather_S1024x512_S100000x1_S100000x512_1_0_n_n_0_1_1512.offCoord (ix2 n q : S100000x512.Idx) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S1024x512.rank) ∈ gather_S1024x512_S100000x1_S100000x512_1_0_n_n_0_1_1512.startIndexMap from List.mem_singleton.mpr rfl), start_index n q,
      val_main_v5_apply,
      show idx_main_v5 (ix2 n (0 : Fin 1) : S100000x1.Idx) = ix1 n from funext fun a => Fin.ext (by match a with | ⟨0, _⟩ => rfl),
      wrapped_apply]
    rfl
  | ⟨1, _⟩ =>
    show gather_S1024x512_S100000x1_S100000x512_1_0_n_n_0_1_1512.start (ix2 n q : S100000x512.Idx) (val_main_v5 (F := Ideal) x2) 1
        + gather_S1024x512_S100000x1_S100000x512_1_0_n_n_0_1_1512.batchCoord (ix2 n q : S100000x512.Idx) 1 + gather_S1024x512_S100000x1_S100000x512_1_0_n_n_0_1_1512.offCoord (ix2 n q : S100000x512.Idx) 1 = q.val
    rw [GatherDims.batchCoord_eq_zero _ _ _ List.not_mem_nil]
    unfold GatherDims.start GatherDims.offCoord
    rw [dif_neg (show ¬(1 : Fin S1024x512.rank) ∈ gather_S1024x512_S100000x1_S100000x512_1_0_n_n_0_1_1512.startIndexMap by decide),
      dif_pos (show (1 : Fin S1024x512.rank) ∈ gather_S1024x512_S100000x1_S100000x512_1_0_n_n_0_1_1512.sKept by decide)]
    simp only [Nat.zero_add, Nat.add_zero]
    rfl

/-- The concatenated row of node `n`: its features in columns 0–511 … -/
theorem joined_left (x0 : S100000x512.Idx → EReal) (x1 : S1024x512.Idx → EReal) (x2 : S100000.Idx → BitVec 32)
    (n : Fin 100000) (q : Fin 512) :
    val_main_v7 (F := Ideal) x0 x1 x2 (ix2 n (⟨q.val, by omega⟩ : Fin 1024)) = x0 (ix2 n q) := by
  unfold val_main_v7
  exact concatenate_pair_apply_left 1 x0 (val_main_v6 (F := Ideal) x1 x2) _ (ix2 n (⟨q.val, by omega⟩ : Fin 1024)) rfl (ix2 n q) (fun b => by
    match b with
    | ⟨0, _⟩ => rfl
    | ⟨1, _⟩ => rfl)

/-- … its prompt row in columns 512–1023. -/
theorem joined_right (x0 : S100000x512.Idx → EReal) (x1 : S1024x512.Idx → EReal) (x2 : S100000.Idx → BitVec 32)
    (n : Fin 100000) (q : Fin 512) :
    val_main_v7 (F := Ideal) x0 x1 x2 (ix2 n (⟨512 + q.val, by omega⟩ : Fin 1024))
      = x1 (ix2 (Cert.Spec.row (x2 (ix1 n))) q) := by
  unfold val_main_v7
  refine (concatenate_pair_apply_right 1 x0 (val_main_v6 (F := Ideal) x1 x2) _ (ix2 n (⟨512 + q.val, by omega⟩ : Fin 1024)) rfl rfl (ix2 n q) (fun b hb => by
    match b with
    | ⟨0, _⟩ => rfl
    | ⟨1, _⟩ => exact absurd rfl hb) (by show q.val + 512 = 512 + q.val; omega)).trans ?_
  exact gathered_apply x1 x2 n q

/-- The hidden layer's entry before the rectifier. -/
theorem hidden_apply (x0 : S100000x512.Idx → EReal) (x1 : S1024x512.Idx → EReal) (x2 : S100000.Idx → BitVec 32)
    (x3 : S1024x512.Idx → EReal) (x4 : S512.Idx → EReal) (n : Fin 100000) (k : Fin 512) :
    val_main_v11 (F := Ideal) x0 x1 x2 x3 x4 (ix2 n k) = Cert.Spec.pre x0 x1 x2 x3 x4 n k := by
  rw [val_main_v11_apply, val_main_v8_apply, val_main_v10_apply, val_main_v9_apply]
  unfold Cert.Spec.pre
  refine congrArg₂ (· + ·) ?_ (congrArg x4 (funext fun a => Fin.ext (by match a with | ⟨0, _⟩ => rfl)))
  show (∑ k' : Fin (512 + 512), _) = _
  rw [Fin.sum_univ_add]
  refine congrArg₂ (· + ·) (Finset.sum_congr rfl fun q _ => ?_) (Finset.sum_congr rfl fun q _ => ?_)
  · refine congrArg₂ (· * ·) ((congrArg (val_main_v7 (F := Ideal) x0 x1 x2) (funext fun a => Fin.ext (by
      match a with
      | ⟨0, _⟩ => rfl
      | ⟨1, _⟩ => rfl))).trans (joined_left x0 x1 x2 n q)) (congrArg x3 (funext fun a => Fin.ext (by
      match a with
      | ⟨0, _⟩ => rfl
      | ⟨1, _⟩ => rfl)))
  · refine congrArg₂ (· * ·) ((congrArg (val_main_v7 (F := Ideal) x0 x1 x2) (funext fun a => Fin.ext (by
      match a with
      | ⟨0, _⟩ => rfl
      | ⟨1, _⟩ => rfl))).trans (joined_right x0 x1 x2 n q)) (congrArg x3 (funext fun a => Fin.ext (by
      match a with
      | ⟨0, _⟩ => rfl
      | ⟨1, _⟩ => rfl)))

/-- THE REFERENCE'S RESULT is the specification. -/
theorem result_eq (x0 : S100000x512.Idx → EReal) (x1 : S1024x512.Idx → EReal) (x2 : S100000.Idx → BitVec 32)
    (x3 : S1024x512.Idx → EReal) (x4 : S512.Idx → EReal) (x5 : S512x512.Idx → EReal) (x6 : S512.Idx → EReal) :
    val_main_v16 (F := Ideal) x0 x1 x2 x3 x4 x5 x6 = Cert.Spec.G x0 x1 x2 x3 x4 x5 x6 := by
  funext j
  obtain ⟨n, d, rfl⟩ : ∃ (n : Fin 100000) (d : Fin 512), j = ix2 n d := ⟨j 0, j 1, eq_ix2 j⟩
  rw [val_main_v16_apply, val_main_v13_apply, val_main_v15_apply, val_main_v14_apply]
  unfold Cert.Spec.G
  refine congrArg₂ (· + ·) (Finset.sum_congr rfl fun k _ => ?_) (congrArg x6 (funext fun a => Fin.ext (by match a with | ⟨0, _⟩ => rfl)))
  refine congrArg₂ (· * ·) ?_ (congrArg x5 (funext fun a => Fin.ext (by
    match a with
    | ⟨0, _⟩ => rfl
    | ⟨1, _⟩ => rfl)))
  rw [show lidx_main_v13 (ix2 n d : S100000x512.Idx) k = ix2 n k from funext fun a => Fin.ext (by
    match a with
    | ⟨0, _⟩ => rfl
    | ⟨1, _⟩ => rfl), val_main_v12_apply, hidden_apply, val_main_call0_v0_apply, val_main_call0_cst_apply]
  rfl

end Cert.ReferenceIdeal.RefValue

end
-- ==== Proof.lean ====
/-
  A graph network's node update: each of 100000 nodes carries 512 features and the number of its graph;
  the graph's 512-entry prompt row is appended to the node's features, the joined row goes through a linear
  layer with a rectifier and then through a second linear layer.

  The reference does exactly that: a gather of prompt rows (a negative graph number wraps once by 1024, and
  the gather cuts the number off at 0 and 1023), a concatenation, two matrix products with their biases.

  The kernel program splits the first layer. The lower half of the first weight matrix is folded into the
  prompt table once, before the launch (1024 rows of 512); the graph numbers are wrapped and clamped the
  same way, and per tile of 1000 nodes their least and greatest value are tabulated. At each of the 100
  grid points the body adds to the node features' product with the upper half the row of the folded table
  that the node's number selects, found by a one-hot product over those of the table's four chunks of 256
  rows whose range meets the tile's [least, greatest]; then bias, rectifier and the second layer.

  On the extended reals the two agree entry by entry, with no hypothesis on the numbers: a one-hot weight is
  0 or 1, and `0 * x = 0`, `1 * x = x`, `0 + x = x` hold for every extended real, so a chunk's product is
  the selected row or zero; the node's number lies in the tile's range, so its chunk is among those added;
  and the sum over the 1024 joined columns is the sum over the first 512 plus the sum over the last 512.
  Both results are the one function `Cert.Spec.G` of the arguments. The prefetched tables are not used by
  any index map, so the frames hold for every contents of them; the ideal pass rewrote nothing.
-/
import proofs.«415421_j57019985821823_3_alg».proof.Defs
import proofs.«415421_j57019985821823_3_alg».proof.Proof.Gen.Kernel
import proofs.«415421_j57019985821823_3_alg».proof.Proof.Gen.Kernel.Skeleton
import proofs.«415421_j57019985821823_3_alg».proof.Proof.Gen.Kernel.Launch
import proofs.«415421_j57019985821823_3_alg».proof.Proof.Gen.Kernel.Points
import proofs.«415421_j57019985821823_3_alg».proof.Proof.Gen.Kernel.Frame
import proofs.«415421_j57019985821823_3_alg».proof.Proof.Gen.KernelIdeal
import proofs.«415421_j57019985821823_3_alg».proof.Proof.Gen.KernelIdeal.Skeleton
import proofs.«415421_j57019985821823_3_alg».proof.Proof.Gen.KernelIdeal.Launch
import proofs.«415421_j57019985821823_3_alg».proof.Proof.Gen.KernelIdeal.Points
import proofs.«415421_j57019985821823_3_alg».proof.Proof.Gen.KernelIdeal.Frame
import proofs.«415421_j57019985821823_3_alg».proof.Proof.Gen.ReferenceIdeal
import proofs.«415421_j57019985821823_3_alg».proof.Proof.Gen.ReferenceIdeal.Run
import proofs.«415421_j57019985821823_3_alg».proof.Proof.Gen.ReferenceIdeal.Read
import proofs.«415421_j57019985821823_3_alg».proof.Proof.Gen.Pre_finite_inputs
import proofs.«415421_j57019985821823_3_alg».proof.Proof.KValue
import proofs.«415421_j57019985821823_3_alg».proof.Proof.RefValue
import Idealize.ShloMosaic.Adequacy
import Idealize.ShloMosaic.Init

noncomputable section

namespace Cert.Proof

open Idealize.ShloMosaic Idealize.SL.Sem Cert.Kernel

/-- No index map reads the two tables: the pipeline's side condition on their contents is `True`. -/
theorem ok_bits (m : (ℓ : Loc Cert.Kernel.nD Cert.Kernel.τ Cert.Kernel.sig) → Buf (Elt Bits) ℓ) : Cert.Kernel.Gen.Ok m :=
  (show Cert.Kernel.ok0 (F := Bits) (Cert.Kernel.Gen.tbl m) from True.intro)
theorem ok_ideal (m : (ℓ : Loc Cert.KernelIdeal.nD Cert.KernelIdeal.τ Cert.KernelIdeal.sig) → Buf (Elt Ideal) ℓ) :
    Cert.KernelIdeal.Gen.Ok m :=
  (show Cert.KernelIdeal.ok0 (F := Ideal) (Cert.KernelIdeal.Gen.tbl m) from True.intro)

/-- The three frames: the two kernel programs' by their launch-and-body runs, the reference's by its run with
    the result dropped. -/
theorem frame_k : Cert.frame_Kernel :=
  fun m ρ _ => Cert.Kernel.Gen.frame m ρ (ok_bits m)
theorem frame_ki : Cert.frame_KernelIdeal :=
  fun m ρ _ => Cert.KernelIdeal.Gen.frame m ρ (ok_ideal m)
theorem frame_ri : Cert.frame_ReferenceIdeal :=
  fun m ρ _ => (θ_run Cert.ReferenceIdeal.defs _ _).mono (fun _ h c => (h c).2)
    (Cert.ReferenceIdeal.Value.run (F := Ideal) m ρ)

/-- Both idealized programs end with the result array at the specification's function of arguments that
    agree. -/
theorem algebraic : Cert.algebraic_KernelIdeal_ReferenceIdeal := by
  intro m ρ m' ρ' _ hagree
  refine ⟨fun c => Cert.KernelIdeal.Value.Gm m c, Cert.KernelIdeal.Value.run m ρ (ok_ideal m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
